-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S16x3x64x1024 : Shape := ⟨4, ![16, 3, 64, 1024]⟩
abbrev S3x16x64x1024 : Shape := ⟨4, ![3, 16, 64, 1024]⟩
abbrev S8192x1024 : Shape := ⟨2, ![8192, 1024]⟩
abbrev S8192x3072 : Shape := ⟨2, ![8192, 3072]⟩
abbrev S1024x3072 : Shape := ⟨2, ![1024, 3072]⟩
abbrev S4x2048x3072 : Shape := ⟨3, ![4, 2048, 3072]⟩
abbrev S1x2048x3072 : Shape := ⟨3, ![1, 2048, 3072]⟩
abbrev S1x256x1024 : Shape := ⟨3, ![1, 256, 1024]⟩
abbrev S256x1024 : Shape := ⟨2, ![256, 1024]⟩
abbrev S1x2048x1024 : Shape := ⟨3, ![1, 2048, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S16x3x64x1024, .f32⟩
  | .hbm, ⟨4, _⟩ => ⟨S3x16x64x1024, .f32⟩
  | .hbm, ⟨5, _⟩ => ⟨S3072x1024, .f32⟩
  | .hbm, ⟨6, _⟩ => ⟨S3072x1024, .bf16⟩
  | .hbm, ⟨7, _⟩ => ⟨S1024x1024, .bf16⟩
  | .hbm, ⟨8, _⟩ => ⟨S8192x1024, .f32⟩
  | .hbm, ⟨9, _⟩ => ⟨S8192x3072, .bf16⟩
  | .hbm, ⟨10, _⟩ => ⟨S4x2048x3072, .bf16⟩
  | .hbm, ⟨11, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S3072x1024, .bf16⟩
  | .local _ .vmem, ⟨3, _⟩ => ⟨S1024x3072, .bf16⟩
  | .local _ .vmem, ⟨4, _⟩ => ⟨S1024x3072, .bf16⟩
  | .local _ .vmem, ⟨5, _⟩ => ⟨S1x2048x3072, .bf16⟩
  | .local _ .vmem, ⟨6, _⟩ => ⟨S1x2048x3072, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c256_i32 : BitVec 32 := 256#32
  let v0 : BitVec 32 := Scalar.muli arg1 c256_i32
  v0
def k1_off1 (i : grid1.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  h_S1x256x1024 : 0 < S1x256x1024.numel
  shapeCasts_S1x256x1024_S256x1024 : S1x256x1024.ShapeCasts S256x1024
  inb_S1x2048x3072_S1x2048x1024_0_0_1024 : ∀ a, (![0, 0, 1024] : Fin 3 → Nat) a + S1x2048x1024.size a ≤ S1x2048x3072.size a
  h_S1x2048x1024 : 0 < S1x2048x1024.numel
  shapeCasts_S1x2048x1024_S2048x1024 : S1x2048x1024.ShapeCasts S2048x1024
  inb_S1x2048x3072_S1x2048x1024_0_0_2048 : ∀ a, (![0, 0, 2048] : Fin 3 → Nat) a + S1x2048x1024.size a ≤ S1x2048x3072.size a
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  packedbf16_S256x1024_S256x64_0_0 : (Rect.unit (s := S256x1024) ![0, 0] S256x64.size inb_S256x1024_S256x64_0_0).PackedRows (EltTy.packing .bf16)
  slices_S256x1024_o0_64_S256x64 : S256x1024.Slices ![0, 64] S256x64
  slices_S2048x1024_o0_64_S2048x64 : S2048x1024.Slices ![0, 64] S2048x64
  inb_S256x1024_S256x64_0_64 : ∀ a, (![0, 64] : Fin 2 → Nat) a + S256x64.size a ≤ S256x1024.size a
  packedbf16_S256x1024_S256x64_0_64 : (Rect.unit (s := S256x1024) ![0, 64] S256x64.size inb_S256x1024_S256x64_0_64).PackedRows (EltTy.packing .bf16)
  slices_S256x1024_o0_128_S256x64 : S256x1024.Slices ![0, 128] S256x64
  slices_S2048x1024_o0_128_S2048x64 : S2048x1024.Slices ![0, 128] S2048x64
  inb_S256x1024_S256x64_0_128 : ∀ a, (![0, 128] : Fin 2 → Nat) a + S256x64.size a ≤ S256x1024.size a
  packedbf16_S256x1024_S256x64_0_128 : (Rect.unit (s := S256x1024) ![0, 128] S256x64.size inb_S256x1024_S256x64_0_128).PackedRows (EltTy.packing .bf16)
  slices_S256x1024_o0_192_S256x64 : S256x1024.Slices ![0, 192] S256x64
  slices_S2048x1024_o0_192_S2048x64 : S2048x1024.Slices ![0, 192] S2048x64
  inb_S256x1024_S256x64_0_192 : ∀ a, (![0, 192] : Fin 2 → Nat) a + S256x64.size a ≤ S256x1024.size a
  packedbf16_S256x1024_S256x64_0_192 : (Rect.unit (s := S256x1024) ![0, 192] S256x64.size inb_S256x1024_S256x64_0_192).PackedRows (EltTy.packing .bf16)
  slices_S256x1024_o0_256_S256x64 : S256x1024.Slices ![0, 256] S256x64
  slices_S2048x1024_o0_256_S2048x64 : S2048x1024.Slices ![0, 256] S2048x64
  inb_S256x1024_S256x64_0_256 : ∀ a, (![0, 256] : Fin 2 → Nat) a + S256x64.size a ≤ S256x1024.size a
  packedbf16_S256x1024_S256x64_0_256 : (Rect.unit (s := S256x1024) ![0, 256] S256x64.size inb_S256x1024_S256x64_0_256).PackedRows (EltTy.packing .bf16)
  slices_S256x1024_o0_320_S256x64 : S256x1024.Slices ![0, 320] S256x64
  slices_S2048x1024_o0_320_S2048x64 : S2048x1024.Slices ![0, 320] S2048x64
  inb_S256x1024_S256x64_0_320 : ∀ a, (![0, 320] : Fin 2 → Nat) a + S256x64.size a ≤ S256x1024.size a
  packedbf16_S256x1024_S256x64_0_320 : (Rect.unit (s := S256x1024) ![0, 320] S256x64.size inb_S256x1024_S256x64_0_320).PackedRows (EltTy.packing .bf16)
  slices_S256x1024_o0_384_S256x64 : S256x1024.Slices ![0, 384] S256x64
  slices_S2048x1024_o0_384_S2048x64 : S2048x1024.Slices ![0, 384] S2048x64
  inb_S256x1024_S256x64_0_384 : ∀ a, (![0, 384] : Fin 2 → Nat) a + S256x64.size a ≤ S256x1024.size a
  packedbf16_S256x1024_S256x64_0_384 : (Rect.unit (s := S256x1024) ![0, 384] S256x64.size inb_S256x1024_S256x64_0_384).PackedRows (EltTy.packing .bf16)
  slices_S256x1024_o0_448_S256x64 : S256x1024.Slices ![0, 448] S256x64
  slices_S2048x1024_o0_448_S2048x64 : S2048x1024.Slices ![0, 448] S2048x64
  inb_S256x1024_S256x64_0_448 : ∀ a, (![0, 448] : Fin 2 → Nat) a + S256x64.size a ≤ S256x1024.size a
  packedbf16_S256x1024_S256x64_0_448 : (Rect.unit (s := S256x1024) ![0, 448] S256x64.size inb_S256x1024_S256x64_0_448).PackedRows (EltTy.packing .bf16)
  slices_S256x1024_o0_512_S256x64 : S256x1024.Slices ![0, 512] S256x64
  slices_S2048x1024_o0_512_S2048x64 : S2048x1024.Slices ![0, 512] S2048x64
  inb_S256x1024_S256x64_0_512 : ∀ a, (![0, 512] : Fin 2 → Nat) a + S256x64.size a ≤ S256x1024.size a
  packedbf16_S256x1024_S256x64_0_512 : (Rect.unit (s := S256x1024) ![0, 512] S256x64.size inb_S256x1024_S256x64_0_512).PackedRows (EltTy.packing .bf16)
  slices_S256x1024_o0_576_S256x64 : S256x1024.Slices ![0, 576] S256x64
  slices_S2048x1024_o0_576_S2048x64 : S2048x1024.Slices ![0, 576] S2048x64
  inb_S256x1024_S256x64_0_576 : ∀ a, (![0, 576] : Fin 2 → Nat) a + S256x64.size a ≤ S256x1024.size a
  packedbf16_S256x1024_S256x64_0_576 : (Rect.unit (s := S256x1024) ![0, 576] S256x64.size inb_S256x1024_S256x64_0_576).PackedRows (EltTy.packing .bf16)
  slices_S256x1024_o0_640_S256x64 : S256x1024.Slices ![0, 640] S256x64
  slices_S2048x1024_o0_640_S2048x64 : S2048x1024.Slices ![0, 640] S2048x64
  inb_S256x1024_S256x64_0_640 : ∀ a, (![0, 640] : Fin 2 → Nat) a + S256x64.size a ≤ S256x1024.size a
  packedbf16_S256x1024_S256x64_0_640 : (Rect.unit (s := S256x1024) ![0, 640] S256x64.size inb_S256x1024_S256x64_0_640).PackedRows (EltTy.packing .bf16)
  slices_S256x1024_o0_704_S256x64 : S256x1024.Slices ![0, 704] S256x64
  slices_S2048x1024_o0_704_S2048x64 : S2048x1024.Slices ![0, 704] S2048x64
  inb_S256x1024_S256x64_0_704 : ∀ a, (![0, 704] : Fin 2 → Nat) a + S256x64.size a ≤ S256x1024.size a
  packedbf16_S256x1024_S256x64_0_704 : (Rect.unit (s := S256x1024) ![0, 704] S256x64.size inb_S256x1024_S256x64_0_704).PackedRows (EltTy.packing .bf16)
  slices_S256x1024_o0_768_S256x64 : S256x1024.Slices ![0, 768] S256x64
  slices_S2048x1024_o0_768_S2048x64 : S2048x1024.Slices ![0, 768] S2048x64
  inb_S256x1024_S256x64_0_768 : ∀ a, (![0, 768] : Fin 2 → Nat) a + S256x64.size a ≤ S256x1024.size a
  packedbf16_S256x1024_S256x64_0_768 : (Rect.unit (s := S256x1024) ![0, 768] S256x64.size inb_S256x1024_S256x64_0_768).PackedRows (EltTy.packing .bf16)
  slices_S256x1024_o0_832_S256x64 : S256x1024.Slices ![0, 832] S256x64
  slices_S2048x1024_o0_832_S2048x64 : S2048x1024.Slices ![0, 832] S2048x64
  inb_S256x1024_S256x64_0_832 : ∀ a, (![0, 832] : Fin 2 → Nat) a + S256x64.size a ≤ S256x1024.size a
  packedbf16_S256x1024_S256x64_0_832 : (Rect.unit (s := S256x1024) ![0, 832] S256x64.size inb_S256x1024_S256x64_0_832).PackedRows (EltTy.packing .bf16)
  slices_S256x1024_o0_896_S256x64 : S256x1024.Slices ![0, 896] S256x64
  slices_S2048x1024_o0_896_S2048x64 : S2048x1024.Slices ![0, 896] S2048x64
  inb_S256x1024_S256x64_0_896 : ∀ a, (![0, 896] : Fin 2 → Nat) a + S256x64.size a ≤ S256x1024.size a
  packedbf16_S256x1024_S256x64_0_896 : (Rect.unit (s := S256x1024) ![0, 896] S256x64.size inb_S256x1024_S256x64_0_896).PackedRows (EltTy.packing .bf16)
  slices_S256x1024_o0_960_S256x64 : S256x1024.Slices ![0, 960] S256x64
  slices_S2048x1024_o0_960_S2048x64 : S2048x1024.Slices ![0, 960] S2048x64
  inb_S256x1024_S256x64_0_960 : ∀ a, (![0, 960] : Fin 2 → Nat) a + S256x64.size a ≤ S256x1024.size a
  packedbf16_S256x1024_S256x64_0_960 : (Rect.unit (s := S256x1024) ![0, 960] S256x64.size inb_S256x1024_S256x64_0_960).PackedRows (EltTy.packing .bf16)
  inb_S256x1024_S256x1024_0_0 : ∀ a, (![0, 0] : Fin 2 → Nat) a + S256x1024.size a ≤ S256x1024.size a
  h_S256x1024 : 0 < S256x1024.numel
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S1024x1024_S3072x1024_S1024x3072_1_1_0_0_n_n_wf : DotDims.WF S1024x1024 S3072x1024 S1024x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S1x256x1024.size a ≤ S1x2048x3072.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x3072.size a ≤ S4x2048x3072.size a
  hwx1_0 : ∀ i : grid1.Coords, EltTy.bits .bf16 = 32 ∨ (Rect.block (s := S4x2048x3072) S1x2048x3072.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .f32 = 32 ∨ (Rect.block (s := S4x2048x1024) S1x256x1024.size (cc1_transform_2 i) (hinb1_2 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x2048x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x192 : Shape := ⟨4, ![4, 2048, 16, 192]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x16x192, .f32⟩
  | .hbm, ⟨5, _⟩ => ⟨S4x2048x16x64, .f32⟩
  | .hbm, ⟨6, _⟩ => ⟨S4x2048x16x64, .f32⟩
  | .hbm, ⟨7, _⟩ => ⟨S4x2048x16x64, .f32⟩
  | .hbm, ⟨8, _⟩ => ⟨S4x16x2048x64, .f32⟩
  | .hbm, ⟨9, _⟩ => ⟨S4x16x2048x64, .f32⟩
  | .hbm, ⟨10, _⟩ => ⟨S4x16x2048x64, .f32⟩
  | .hbm, ⟨11, _⟩ => ⟨S4x16x2048x2048, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S_, .f32⟩
  | .hbm, ⟨16, _⟩ => ⟨S4x16x2048, .f32⟩
  | .hbm, ⟨17, _⟩ => ⟨S_, .f32⟩
  | .hbm, ⟨18, _⟩ => ⟨S4x16x2048, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x64, .f32⟩
  | .hbm, ⟨30, _⟩ => ⟨S4x2048x16x64, .f32⟩
  | .hbm, ⟨31, _⟩ => ⟨S4x2048x1024, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  shapeCasts_S4x2048x3072_S4x2048x16x192 : S4x2048x3072.ShapeCasts S4x2048x16x192
  slices_S4x2048x16x192_S4x2048x16x64_0_0_0_0 : S4x2048x16x192.Slices ![0, 0, 0, 0] S4x2048x16x64
  slices_S4x2048x16x192_S4x2048x16x64_0_0_0_64 : S4x2048x16x192.Slices ![0, 0, 0, 64] S4x2048x16x64
  slices_S4x2048x16x192_S4x2048x16x64_0_0_0_128 : S4x2048x16x192.Slices ![0, 0, 0, 128] S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  Multi-head attention as plain functions of coordinates over the extended reals.

  From projected queries, keys and values `Q K V : batch → head → position → feature → EReal` a head's
  logits are `(∑ d, Q b h s d · K b h k d) · scale`, its row maximum the fold of `max` from `-∞`, its
  weights `exp (logit − max)`, its normaliser their sum. The two programs differ in ONE place: one divides the
  weighted sum of the values by the normaliser (`headK`), the other divides every weight first (`headR`).
  The projections are rows of `x · wᵀ`: row `h·192 + p·64 + d` of the fused weight is feature `d` of head `h`
  of part `p` (0 queries, 1 keys, 2 values). The output is the heads' features, concatenated head-major,
  times `woᵀ`.
-/
import Idealize.ShloMosaic.PureOps.Ideal

noncomputable section

namespace Cert.Attn

open Idealize.ShloMosaic

/-- The logits' scale, the f32 word of `1/8`; kept as its word: both programs use the same one. -/
abbrev scale : EReal := Ideal.ofBits .f32 0x3E000000#32
/-- The row maximum's start, the f32 word of `-∞`. -/
abbrev negInf : EReal := Ideal.ofBits .f32 0xFF800000#32

section Core
variable (Q K V : Fin 4 → Fin 16 → Fin 2048 → Fin 64 → EReal)

/-- Scaled dot product of query row `s` and key row `k` of head `h`. -/
def logit (b : Fin 4) (h : Fin 16) (s k : Fin 2048) : EReal := (∑ d : Fin 64, Q b h s d * K b h k d) * scale
/-- The largest logit of query row `s`. -/
def rowMax (b : Fin 4) (h : Fin 16) (s : Fin 2048) : EReal :=
  (Finset.univ : Finset (Fin 2048)).fold max negInf (fun k => logit Q K b h s k)
/-- The unnormalised softmax weight. -/
def weight (b : Fin 4) (h : Fin 16) (s k : Fin 2048) : EReal := Ideal.exp (logit Q K b h s k - rowMax Q K b h s)
/-- The softmax normaliser. -/
def norm (b : Fin 4) (h : Fin 16) (s : Fin 2048) : EReal := ∑ k : Fin 2048, weight Q K b h s k
/-- A head's output, the weighted sum of the values divided ONCE by the normaliser. -/
def headK (b : Fin 4) (h : Fin 16) (s : Fin 2048) (d : Fin 64) : EReal :=
  Ideal.div (∑ k : Fin 2048, weight Q K b h s k * V b h k d) (norm Q K b h s)
/-- A head's output, every weight divided by the normaliser before the sum. -/
def headR (b : Fin 4) (h : Fin 16) (s : Fin 2048) (d : Fin 64) : EReal :=
  ∑ k : Fin 2048, Ideal.div (weight Q K b h s k) (norm Q K b h s) * V b h k d
end Core

/-- Column `c` of the concatenated heads is feature `c % 64` of head `c / 64`. -/
def headOf (c : Fin 1024) : Fin 16 := ⟨c.val / 64, by have := c.isLt; omega⟩
def featOf (c : Fin 1024) : Fin 64 := ⟨c.val % 64, Nat.mod_lt _ (by decide)⟩

/-- Row of the fused weight holding feature `d` of head `h` of part `p`. -/
def fusedRow (p : Fin 3) (h : Fin 16) (d : Fin 64) : Fin 3072 :=
  ⟨h.val * 192 + p.val * 64 + d.val, by have := h.isLt; have := p.isLt; have := d.isLt; omega⟩

section Whole
variable (x : Fin 4 → Fin 2048 → Fin 1024 → EReal) (w : Fin 3072 → Fin 1024 → EReal) (wo : Fin 1024 → Fin 1024 → EReal)

/-- The fused projection `x · wᵀ`. -/
def proj (b : Fin 4) (s : Fin 2048) (o : Fin 3072) : EReal := ∑ j : Fin 1024, x b s j * w o j
/-- Part `p` of the projection, split by head. -/
def part (p : Fin 3) (b : Fin 4) (h : Fin 16) (s : Fin 2048) (d : Fin 64) : EReal := proj x w b s (fusedRow p h d)

/-- The attention output with the single division. -/
def outK (b : Fin 4) (s : Fin 2048) (o : Fin 1024) : EReal :=
  ∑ c : Fin 1024, headK (part x w 0) (part x w 1) (part x w 2) b (headOf c) s (featOf c) * wo o c
/-- The attention output with the weights divided first. -/
def outR (b : Fin 4) (s : Fin 2048) (o : Fin 1024) : EReal :=
  ∑ c : Fin 1024, headR (part x w 0) (part x w 1) (part x w 2) b (headOf c) s (featOf c) * wo o c
end Whole

end Cert.Attn

end
-- ==== Proof.Algebra.lean ====
/-
  Softmax attention on real inputs: dividing the weighted sum once, or every weight first, is one value.

  When the projected queries, keys and values are real numbers, every intermediate quantity of a head is
  a real number: the logits are finite sums of products of reals, the row maximum is a maximum of finitely
  many (and at least one) reals, the weights are exponentials of reals and hence positive reals, and the
  normaliser is a positive real. Division by a nonzero real is multiplication by its reciprocal, so both
  head outputs are the coercion of the same real number, by distributivity of multiplication over a finite sum.
-/
import proofs.«422417_j3848290697596_3_alg».proof.Proof.Spec
import Mathlib.Data.EReal.Basic
import Mathlib.Data.EReal.Operations
import Mathlib.Data.EReal.Inv
import Mathlib.Data.Finset.Fold
import Mathlib.Algebra.BigOperators.Group.Finset.Basic
import Mathlib.Algebra.BigOperators.Ring.Finset
import Mathlib.Algebra.Order.BigOperators.Group.Finset
import Mathlib.Analysis.SpecialFunctions.Exp

noncomputable section

namespace Cert.Attn

open Idealize.ShloMosaic

/-! ### The two constants -/

/-- The scale's word denotes a real number (it is 1/8). -/
theorem scale_real : ∃ r : ℝ, scale = (r : EReal) := by
  refine ⟨(1 / 8 : ℝ), ?_⟩
  simp [scale, Ideal.ofBits, Ideal.ieee, -EReal.coe_mul]
  norm_num

/-- The maximum's starting word denotes -∞, the bottom of the extended reals. -/
theorem negInf_eq_bot : negInf = ⊥ := by
  simp [negInf, Ideal.ofBits, Ideal.ieee]

/-! ### Real numbers inside the extended reals are closed under products and finite sums -/

/-- The coercion of a finite real sum is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [coe_finset_sum]
  exact Finset.sum_congr rfl (fun i _ => hg i)

/-! ### The maximum of finitely many reals, folded from -∞ -/

/-- Folding max from -∞ over real entries gives -∞ or a real: each step keeps one of its two arguments. -/
theorem fold_max_bot_or_real {ι : Type} (g : ι → ℝ) (s : Finset ι) :
    s.fold max (⊥ : EReal) (fun k => (g k : EReal)) = ⊥ ∨
      ∃ r : ℝ, s.fold max (⊥ : EReal) (fun k => (g k : EReal)) = (r : EReal) := by
  classical
  induction s using Finset.induction_on with
  | empty => exact Or.inl Finset.fold_empty
  | insert a s ha ih =>
    right
    rw [Finset.fold_insert ha]
    rcases ih with ih | ⟨r, hr⟩
    · rw [ih, max_bot_right]
      exact ⟨g a, rfl⟩
    · rw [hr]
      rcases max_choice (g a : EReal) (r : EReal) with h | h
      · exact ⟨g a, h⟩
      · exact ⟨r, h⟩

/-- Over a nonempty index set the fold is a real: it dominates an entry, which is above -∞. -/
theorem fold_max_real {ι : Type} (g : ι → ℝ) (s : Finset ι) (hs : s.Nonempty) :
    ∃ r : ℝ, s.fold max (⊥ : EReal) (fun k => (g k : EReal)) = (r : EReal) := by
  rcases fold_max_bot_or_real g s with h | h
  · exfalso
    obtain ⟨i, hi⟩ := hs
    have hle : (g i : EReal) ≤ s.fold max (⊥ : EReal) (fun k => (g k : EReal)) :=
      (Finset.le_fold_max _).mpr (Or.inr ⟨i, hi, le_rfl⟩)
    rw [h] at hle
    exact EReal.coe_ne_bot (g i) (le_bot_iff.mp hle)
  · exact h

/-! ### Every quantity of a head is real -/

section Core
variable (Q K V : Fin 4 → Fin 16 → Fin 2048 → Fin 64 → EReal)

/-- Logits of real queries and keys are real. -/
theorem logit_real (hQ : ∀ b h s d, ∃ r : ℝ, Q b h s d = (r : EReal))
    (hK : ∀ b h s d, ∃ r : ℝ, K b h s d = (r : EReal)) (b : Fin 4) (h : Fin 16) (s k : Fin 2048) :
    ∃ r : ℝ, logit Q K b h s k = (r : EReal) := by
  unfold logit
  exact real_mul (real_sum _ _ (fun d => real_mul (hQ b h s d) (hK b h k d))) scale_real

/-- The row maximum of real logits is real. -/
theorem rowMax_real (hQ : ∀ b h s d, ∃ r : ℝ, Q b h s d = (r : EReal))
    (hK : ∀ b h s d, ∃ r : ℝ, K b h s d = (r : EReal)) (b : Fin 4) (h : Fin 16) (s : Fin 2048) :
    ∃ r : ℝ, rowMax Q K b h s = (r : EReal) := by
  choose l hl using logit_real Q K hQ hK b h s
  unfold rowMax
  rw [negInf_eq_bot, funext hl]
  exact fold_max_real l Finset.univ Finset.univ_nonempty

/-- A softmax weight is the exponential of a real: a positive real. -/
theorem weight_pos_real (hQ : ∀ b h s d, ∃ r : ℝ, Q b h s d = (r : EReal))
    (hK : ∀ b h s d, ∃ r : ℝ, K b h s d = (r : EReal)) (b : Fin 4) (h : Fin 16) (s k : Fin 2048) :
    ∃ r : ℝ, 0 < r ∧ weight Q K b h s k = (r : EReal) := by
  obtain ⟨l, hl⟩ := logit_real Q K hQ hK b h s k
  obtain ⟨m, hm⟩ := rowMax_real Q K hQ hK b h s
  refine ⟨Real.exp (l - m), Real.exp_pos _, ?_⟩
  unfold weight
  rw [hl, hm, ← EReal.coe_sub, Ideal.exp_coe]

end Core

/-! ### One division or many -/

/-- With real weights, real values and a nonzero real normaliser, dividing the weighted sum equals summing
    the divided weights: both are the coercion of one real, by distributivity. -/
theorem div_sum_eq_sum_div {ι : Type} (s : Finset ι) (w v : ι → ℝ) {L : ℝ} (hL : L ≠ 0) :
    Ideal.div (∑ k ∈ s, (w k : EReal) * (v k : EReal)) (L : EReal)
      = ∑ k ∈ s, Ideal.div (w k : EReal) (L : EReal) * (v k : EReal) := by
  simp only [Ideal.div_coe hL, ← EReal.coe_mul, ← coe_finset_sum]
  congr 1
  rw [Finset.sum_mul]
  exact Finset.sum_congr rfl (fun k _ => by ring)

/-- With real projections the single division and the per-weight division give the same head output. -/
theorem headK_eq_headR (Q K V : Fin 4 → Fin 16 → Fin 2048 → Fin 64 → EReal)
    (hQ : ∀ b h s d, ∃ r : ℝ, Q b h s d = (r : EReal)) (hK : ∀ b h s d, ∃ r : ℝ, K b h s d = (r : EReal))
    (hV : ∀ b h s d, ∃ r : ℝ, V b h s d = (r : EReal)) (b : Fin 4) (h : Fin 16) (s : Fin 2048) (d : Fin 64) :
    headK Q K V b h s d = headR Q K V b h s d := by
  choose wt hwt using weight_pos_real Q K hQ hK b h s
  choose v hv using hV
  -- the normaliser is the positive real sum of the weights
  have hnorm : norm Q K b h s = ((∑ k : Fin 2048, wt k : ℝ) : EReal) := by
    unfold norm
    rw [coe_finset_sum]
    exact Finset.sum_congr rfl (fun k _ => (hwt k).2)
  have hL : (∑ k : Fin 2048, wt k) ≠ 0 :=
    (Finset.sum_pos (fun k _ => (hwt k).1) Finset.univ_nonempty).ne'
  unfold headK headR
  rw [hnorm]
  have hw : ∀ k, weight Q K b h s k = (wt k : EReal) := fun k => (hwt k).2
  simp only [hw, hv]
  exact div_sum_eq_sum_div Finset.univ wt (fun k => v b h k d) hL

/-! ### The whole attention output -/

/-- A projection of real arrays is real. -/
theorem part_real (x : Fin 4 → Fin 2048 → Fin 1024 → EReal) (w : Fin 3072 → Fin 1024 → EReal)
    (hx : ∀ b s j, ∃ r : ℝ, x b s j = (r : EReal)) (hw : ∀ o j, ∃ r : ℝ, w o j = (r : EReal))
    (p : Fin 3) (b : Fin 4) (h : Fin 16) (s : Fin 2048) (d : Fin 64) : ∃ r : ℝ, part x w p b h s d = (r : EReal) := by
  unfold part proj
  exact real_sum _ _ (fun j => real_mul (hx b s j) (hw _ j))

/-- So on real activations and projection weights the two attention outputs are one function (nothing is asked of wo). -/
theorem outK_eq_outR (x : Fin 4 → Fin 2048 → Fin 1024 → EReal) (w : Fin 3072 → Fin 1024 → EReal) (wo : Fin 1024 → Fin 1024 → EReal)
    (hx : ∀ b s j, ∃ r : ℝ, x b s j = (r : EReal)) (hw : ∀ o j, ∃ r : ℝ, w o j = (r : EReal)) :
    outK x w wo = outR x w wo := by
  funext b s o
  unfold outK outR
  refine Finset.sum_congr rfl (fun c _ => ?_)
  rw [headK_eq_headR (part x w 0) (part x w 1) (part x w 2) (part_real x w hx hw 0) (part_real x w hx hw 1)
    (part_real x w hx hw 2)]

end Cert.Attn

end
-- ==== Proof.RefSpec.lean ====
/-
  The reference program's result, read at an index, is the attention output `outR` of its three argument arrays.

  Each operation of the reference is read at explicit coordinates and identified with the quantity of the
  specification it computes: the fused projection, its three parts split by head, the scaled logits, the row
  maximum, the softmax weights and their normaliser, the heads' outputs with every weight divided first, the
  heads' features concatenated head-major, and the output projection.
-/
import proofs.«422417_j3848290697596_3_alg».proof.Proof.Spec
import proofs.«422417_j3848290697596_3_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.Attn.Ref

section Stages

open Idealize.ShloMosaic Idealize.ShloMosaic.ValueIdx Cert.ReferenceIdeal Cert.ReferenceIdeal.Gen Cert.ReferenceIdeal.Read

variable (x0 : S4x2048x1024.Idx → EReal) (x1 : S3072x1024.Idx → EReal) (x2 : S1024x1024.Idx → EReal)

/-- The activations as a function of (batch, position, column). -/
abbrev xs : Fin 4 → Fin 2048 → Fin 1024 → EReal := fun b s j => x0 (ix3 b s j)
/-- The fused projection weight as a function of (row, column). -/
abbrev ws : Fin 3072 → Fin 1024 → EReal := fun o j => x1 (ix2 o j)
/-- The output projection weight as a function of (row, column). -/
abbrev wos : Fin 1024 → Fin 1024 → EReal := fun o j => x2 (ix2 o j)

/-- The first contraction at (b, s, o) is the fused projection: the sum over the columns of x · w. -/
theorem v0_eq (b : Fin 4) (s : Fin 2048) (o : Fin 3072) :
    val_main_v0 (F := Ideal) x0 x1 (ix3 b s o) = proj (xs x0) (ws x1) b s o := by
  rw [val_main_v0_apply]
  unfold proj
  refine Finset.sum_congr rfl fun k _ => ?_
  rw [show lidx_main_v0 (ix3 b s o) k = ix3 b s k from
        funext fun a => by match a with | ⟨0, _⟩ => rfl | ⟨1, _⟩ => rfl | ⟨2, _⟩ => rfl,
      show ridx_main_v0 (ix3 b s o) k = ix2 o k from
        funext fun a => by match a with | ⟨0, _⟩ => rfl | ⟨1, _⟩ => rfl]

/-- The regrouped projection at (b, s, h, j) is the fused projection's row h·192 + j: both name the same
    row-major position. -/
theorem v1_eq (b : Fin 4) (s : Fin 2048) (h : Fin 16) (j : Fin 192) :
    val_main_v1 (F := Ideal) x0 x1 (ix4 b s h j)
      = proj (xs x0) (ws x1) b s ⟨h.val * 192 + j.val, by have := h.isLt; have := j.isLt; omega⟩ := by
  rw [val_main_v1_apply, ← v0_eq]
  refine congrArg _ (funext fun a => Fin.ext ?_)
  have hb := b.isLt; have hs := s.isLt; have hh := h.isLt; have hj := j.isLt
  match a with
  | ⟨0, _⟩ => show (((b.val * 2048 + s.val) * 16 + h.val) * 192 + j.val) / 6291456 = b.val; omega
  | ⟨1, _⟩ => show (((b.val * 2048 + s.val) * 16 + h.val) * 192 + j.val) / 3072 % 2048 = s.val; omega
  | ⟨2, _⟩ => show (((b.val * 2048 + s.val) * 16 + h.val) * 192 + j.val) % 3072 = h.val * 192 + j.val; omega

/-- The queries at (b, h, s, d): columns 0..63 of head h's group, positions and heads exchanged. -/
theorem v5_eq (b : Fin 4) (h : Fin 16) (s : Fin 2048) (d : Fin 64) :
    val_main_v5 (F := Ideal) x0 x1 (ix4 b h s d) = part (xs x0) (ws x1) 0 b h s d := by
  rw [val_main_v5_apply, val_main_v2_apply,
    show idx_main_v2 (idx_main_v5 (ix4 b h s d)) = ix4 b s h ⟨d.val, by have := d.isLt; omega⟩ from
      funext fun a => by match a with | ⟨0, _⟩ => rfl | ⟨1, _⟩ => rfl | ⟨2, _⟩ => rfl | ⟨3, _⟩ => rfl,
    v1_eq]
  unfold part fusedRow
  exact congrArg _ (Fin.ext (by show h.val * 192 + d.val = h.val * 192 + 0 * 64 + d.val; omega))

/-- The keys at (b, h, s, d): columns 64..127 of head h's group. -/
theorem v6_eq (b : Fin 4) (h : Fin 16) (s : Fin 2048) (d : Fin 64) :
    val_main_v6 (F := Ideal) x0 x1 (ix4 b h s d) = part (xs x0) (ws x1) 1 b h s d := by
  rw [val_main_v6_apply, val_main_v3_apply,
    show idx_main_v3 (idx_main_v6 (ix4 b h s d)) = ix4 b s h ⟨64 + d.val, by have := d.isLt; omega⟩ from
      funext fun a => by match a with | ⟨0, _⟩ => rfl | ⟨1, _⟩ => rfl | ⟨2, _⟩ => rfl | ⟨3, _⟩ => rfl,
    v1_eq]
  unfold part fusedRow
  exact congrArg _ (Fin.ext (by show h.val * 192 + (64 + d.val) = h.val * 192 + 1 * 64 + d.val; omega))

/-- The values at (b, h, s, d): columns 128..191 of head h's group. -/
theorem v7_eq (b : Fin 4) (h : Fin 16) (s : Fin 2048) (d : Fin 64) :
    val_main_v7 (F := Ideal) x0 x1 (ix4 b h s d) = part (xs x0) (ws x1) 2 b h s d := by
  rw [val_main_v7_apply, val_main_v4_apply,
    show idx_main_v4 (idx_main_v7 (ix4 b h s d)) = ix4 b s h ⟨128 + d.val, by have := d.isLt; omega⟩ from
      funext fun a => by match a with | ⟨0, _⟩ => rfl | ⟨1, _⟩ => rfl | ⟨2, _⟩ => rfl | ⟨3, _⟩ => rfl,
    v1_eq]
  unfold part fusedRow
  exact congrArg _ (Fin.ext (by show h.val * 192 + (128 + d.val) = h.val * 192 + 2 * 64 + d.val; omega))

/-- The projected queries, keys and values of the specification. -/
abbrev Qs : Fin 4 → Fin 16 → Fin 2048 → Fin 64 → EReal := part (xs x0) (ws x1) 0
abbrev Ks : Fin 4 → Fin 16 → Fin 2048 → Fin 64 → EReal := part (xs x0) (ws x1) 1
abbrev Vs : Fin 4 → Fin 16 → Fin 2048 → Fin 64 → EReal := part (xs x0) (ws x1) 2

/-- The scaled product of queries and keys at (b, h, s, k) is the logit. -/
theorem v10_eq (b : Fin 4) (h : Fin 16) (s k : Fin 2048) :
    val_main_v10 (F := Ideal) x0 x1 (ix4 b h s k) = logit (Qs x0 x1) (Ks x0 x1) b h s k := by
  rw [val_main_v10_apply, val_main_v9_apply, val_main_cst_apply, val_main_v8_apply, Ideal.mulf_def, Ideal.ofBits_def]
  unfold logit
  refine congrArg (· * scale) (Finset.sum_congr rfl fun d _ => ?_)
  rw [show lidx_main_v8 (ix4 b h s k) d = ix4 b h s d from
        funext fun a => by match a with | ⟨0, _⟩ => rfl | ⟨1, _⟩ => rfl | ⟨2, _⟩ => rfl | ⟨3, _⟩ => rfl,
      show ridx_main_v8 (ix4 b h s k) d = ix4 b h k d from
        funext fun a => by match a with | ⟨0, _⟩ => rfl | ⟨1, _⟩ => rfl | ⟨2, _⟩ => rfl | ⟨3, _⟩ => rfl,
      v5_eq, v6_eq]

/-- The maximum over the keys' axis at (b, h, s) is the row maximum: the fold of max from the start value
    over the logits of that row. -/
theorem v11_eq (b : Fin 4) (h : Fin 16) (s : Fin 2048) :
    val_main_v11 (F := Ideal) x0 x1 (ix3 b h s) = rowMax (Qs x0 x1) (Ks x0 x1) b h s := by
  unfold val_main_v11
  rw [Host.reduce_eq_fold_single FloatOps.maximumf _ _ reducesTo_S4x16x2048x2048_S4x16x2048_d3
        (by decide : Shape.Reduces S4x16x2048x2048 [3] S4x16x2048) h_S_ (ix3 b h s)]
  unfold rowMax
  refine Finset.fold_congr fun k _ => ?_
  refine Eq.trans ?_ (v10_eq x0 x1 b h s k)
  exact congrArg (val_main_v10 (F := Ideal) x0 x1) (funext fun a => Fin.ext (by
    match a with | ⟨0, _⟩ => rfl | ⟨1, _⟩ => rfl | ⟨2, _⟩ => rfl | ⟨3, _⟩ => rfl))

/-- Taking the maximum with the start value once more changes nothing: a fold of max is at least its start. -/
theorem v13_eq (b : Fin 4) (h : Fin 16) (s : Fin 2048) :
    val_main_v13 (F := Ideal) x0 x1 (ix3 b h s) = rowMax (Qs x0 x1) (Ks x0 x1) b h s := by
  rw [val_main_v13_apply, val_main_v12_apply, val_main_cst_1_apply, v11_eq, Ideal.maximumf_def, Ideal.ofBits_def]
  unfold rowMax
  exact max_eq_right ((Finset.le_fold_max _).mpr (Or.inl le_rfl))

/-- The row maximum broadcast along the keys' axis. -/
theorem v15_eq (b : Fin 4) (h : Fin 16) (s k : Fin 2048) :
    val_main_v15 (F := Ideal) x0 x1 (ix4 b h s k) = rowMax (Qs x0 x1) (Ks x0 x1) b h s := by
  rw [val_main_v15_apply, val_main_v14_apply,
    show idx_main_v14 (idx_main_v15 (ix4 b h s k)) = ix3 b h s from
      funext fun a => by match a with | ⟨0, _⟩ => rfl | ⟨1, _⟩ => rfl | ⟨2, _⟩ => rfl,
    v13_eq]

/-- The exponential of the logit less the row maximum is the unnormalised weight. -/
theorem v17_eq (b : Fin 4) (h : Fin 16) (s k : Fin 2048) :
    val_main_v17 (F := Ideal) x0 x1 (ix4 b h s k) = weight (Qs x0 x1) (Ks x0 x1) b h s k := by
  rw [val_main_v17_apply, val_main_v16_apply, v10_eq, v15_eq, Ideal.hostUnary_exp_def, Ideal.subf_def]
  rfl

/-- The sum of the weights over the keys' axis, started from zero, is the normaliser. -/
theorem v18_eq (b : Fin 4) (h : Fin 16) (s : Fin 2048) :
    val_main_v18 (F := Ideal) x0 x1 (ix3 b h s) = norm (Qs x0 x1) (Ks x0 x1) b h s := by
  rw [val_main_v18_apply, val_main_cst_2_apply, Ideal.ofBits_def, Ideal.ofBits_zero_f32, zero_add]
  unfold norm
  refine Finset.sum_congr rfl fun k _ => ?_
  rw [show idx_main_v18 (ix3 b h s) k = ix4 b h s k from
        funext fun a => by match a with | ⟨0, _⟩ => rfl | ⟨1, _⟩ => rfl | ⟨2, _⟩ => rfl | ⟨3, _⟩ => rfl,
      v17_eq]

/-- The normaliser broadcast along the keys' axis. -/
theorem v20_eq (b : Fin 4) (h : Fin 16) (s k : Fin 2048) :
    val_main_v20 (F := Ideal) x0 x1 (ix4 b h s k) = norm (Qs x0 x1) (Ks x0 x1) b h s := by
  rw [val_main_v20_apply, val_main_v19_apply,
    show idx_main_v19 (idx_main_v20 (ix4 b h s k)) = ix3 b h s from
      funext fun a => by match a with | ⟨0, _⟩ => rfl | ⟨1, _⟩ => rfl | ⟨2, _⟩ => rfl,
    v18_eq]

/-- Every weight divided by its row's normaliser. -/
theorem v21_eq (b : Fin 4) (h : Fin 16) (s k : Fin 2048) :
    val_main_v21 (F := Ideal) x0 x1 (ix4 b h s k)
      = Ideal.div (weight (Qs x0 x1) (Ks x0 x1) b h s k) (norm (Qs x0 x1) (Ks x0 x1) b h s) := by
  rw [val_main_v21_apply, v17_eq, v20_eq, Ideal.hostDivf_def]

/-- The divided weights times the values, summed over the keys, is a head's output with the weights divided first. -/
theorem v22_eq (b : Fin 4) (h : Fin 16) (s : Fin 2048) (d : Fin 64) :
    val_main_v22 (F := Ideal) x0 x1 (ix4 b h s d) = headR (Qs x0 x1) (Ks x0 x1) (Vs x0 x1) b h s d := by
  rw [val_main_v22_apply]
  unfold headR
  refine Finset.sum_congr rfl fun k _ => ?_
  rw [show lidx_main_v22 (ix4 b h s d) k = ix4 b h s k from
        funext fun a => by match a with | ⟨0, _⟩ => rfl | ⟨1, _⟩ => rfl | ⟨2, _⟩ => rfl | ⟨3, _⟩ => rfl,
      show ridx_main_v22 (ix4 b h s d) k = ix4 b h k d from
        funext fun a => by match a with | ⟨0, _⟩ => rfl | ⟨1, _⟩ => rfl | ⟨2, _⟩ => rfl | ⟨3, _⟩ => rfl,
      v21_eq, v7_eq]

/-- The heads' outputs with heads and positions exchanged back and the last two axes merged: column c of the
    merged axis is feature c % 64 of head c / 64, both naming the same row-major position. -/
theorem v24_eq (b : Fin 4) (s : Fin 2048) (c : Fin 1024) :
    val_main_v24 (F := Ideal) x0 x1 (ix3 b s c)
      = headR (Qs x0 x1) (Ks x0 x1) (Vs x0 x1) b (headOf c) s (featOf c) := by
  rw [val_main_v24_apply, val_main_v23_apply, ← v22_eq]
  refine congrArg _ (funext fun a => Fin.ext ?_)
  have hb := b.isLt; have hs := s.isLt; have hc := c.isLt
  match a with
  | ⟨0, _⟩ => show ((b.val * 2048 + s.val) * 1024 + c.val) / 2097152 = b.val; omega
  | ⟨1, _⟩ => show ((b.val * 2048 + s.val) * 1024 + c.val) / 64 % 16 = c.val / 64; omega
  | ⟨2, _⟩ => show ((b.val * 2048 + s.val) * 1024 + c.val) / 1024 % 2048 = s.val; omega
  | ⟨3, _⟩ => show ((b.val * 2048 + s.val) * 1024 + c.val) % 64 = c.val % 64; omega

/-- The reference's result at explicit coordinates: the concatenated heads times the output weight's rows. -/
theorem ref_eq_ix (b : Fin 4) (s : Fin 2048) (o : Fin 1024) :
    val_main_v25 (F := Ideal) x0 x1 x2 (ix3 b s o) = outR (xs x0) (ws x1) (wos x2) b s o := by
  rw [val_main_v25_apply]
  unfold outR
  refine Finset.sum_congr rfl fun c _ => ?_
  rw [show lidx_main_v25 (ix3 b s o) c = ix3 b s c from
        funext fun a => by match a with | ⟨0, _⟩ => rfl | ⟨1, _⟩ => rfl | ⟨2, _⟩ => rfl,
      show ridx_main_v25 (ix3 b s o) c = ix2 o c from
        funext fun a => by match a with | ⟨0, _⟩ => rfl | ⟨1, _⟩ => rfl,
      v24_eq]

end Stages

open Idealize.ShloMosaic Idealize.ShloMosaic.ValueIdx Cert.ReferenceIdeal in
/-- The reference's result at `(b, s, o)` is the attention output with the weights divided first. -/
theorem ref_eq (x0 : S4x2048x1024.Idx → EReal) (x1 : S3072x1024.Idx → EReal) (x2 : S1024x1024.Idx → EReal) (i : S4x2048x1024.Idx) :
    Cert.ReferenceIdeal.Read.val_main_v25 (F := Ideal) x0 x1 x2 i
      = Cert.Attn.outR (fun b s j => x0 (ix3 b s j)) (fun o j => x1 (ix2 o j)) (fun o j => x2 (ix2 o j)) (i 0) (i 1) (i 2) := by
  obtain ⟨b, s, o, rfl⟩ : ∃ (b : Fin 4) (s : Fin 2048) (o : Fin 1024), i = ix3 b s o := ⟨i 0, i 1, i 2, eq_ix3 i⟩
  exact ref_eq_ix x0 x1 x2 b s o

end Cert.Attn.Ref

end
-- ==== Proof.Finite.lean ====
import proofs.«422417_j3848290697596_3_alg».proof.Pre_finite_inputs
import proofs.«422417_j3848290697596_3_alg».proof.Proof.Gen.Pre_finite_inputs
import Idealize.ShloMosaic.Lib.ReduceAll
import Idealize.ShloMosaic.Lib.ValueIdx
import Idealize.ShloMosaic.PureOps.Ideal.Laws
import Mathlib.Data.EReal.Basic

/-!
  # Finite inputs are real inputs

  The precondition says, of each of three float arrays, that every entry has absolute value strictly below
  `+∞`, the three conjunctions over all entries joined by `and`. Over the extended reals the absolute value
  is `max x (−x)`, and an extended real with `max x (−x) < ⊤` is neither `⊤` nor `⊥`: it is a real.
-/

namespace Cert.Attn.Finite

open Idealize.ShloMosaic

/-- An extended real whose absolute value `max x (−x)` lies strictly below `⊤` is a real: at `⊥` the
    negation is `⊤`, at `⊤` the value itself is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern `0x7F800000` (sign 0, exponent all ones, fraction 0) denotes `+∞`. -/
theorem ofBits_inf : Ideal.ofBits .f32 0x7F800000#32 = ⊤ := by
  simp [Ideal.ofBits, Ideal.ieee]

/-- One entry: if the comparison `|x| < +∞` holds (is the word 1), `x` is a real. The comparison at the
    extended reals is the order's `<`, and the host's absolute value is `max x (−x)`. -/
theorem real_of_olt_inf (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max (x : EReal) (-(x : EReal)) < Ideal.ofBits .f32 0x7F800000#32)) = 1#1 := h
  rw [ofBits_inf] at h'
  by_cases hlt : max (x : EReal) (-(x : EReal)) < ⊤
  · exact real_of_abs_lt_top x hlt
  · rw [decide_eq_false hlt] at h'
    exact absurd h' (by decide)

open Idealize.ShloMosaic Cert.Pre_finite_inputs in
/-- If the precondition's predicate is all ones on three arrays over the extended reals, every entry of each is a real. -/
theorem real_of_pre [Cert.Pre_finite_inputs.Facts] (a0 : FVec Ideal S4x2048x1024 .f32) (a1 : FVec Ideal S3072x1024 .f32) (a2 : FVec Ideal S1024x1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  -- the result of a reduction over all axes has exactly one index
  haveI : Subsingleton S_.Idx := ⟨fun a b => funext fun d => d.elim0⟩
  have h0 := congrFun h ValueIdx.ix0
  dsimp only [Cert.Pre_finite_inputs.fn] at h0
  -- the outer `and` joins (first ∧ second) with the third
  obtain ⟨h01, h2⟩ := IntOp.andi_eq_one.1 h0
  obtain ⟨h0', h1⟩ := IntOp.andi_eq_one.1 h01
  refine ⟨fun i => ?_, fun i => ?_, fun i => ?_⟩
  · exact real_of_olt_inf (a0 i) (Host.reduce_andi_all _ _ _ _ _ h0' i)
  · exact real_of_olt_inf (a1 i) (Host.reduce_andi_all _ _ _ _ _ h1 i)
  · exact real_of_olt_inf (a2 i) (Host.reduce_andi_all _ _ _ _ _ h2 i)

end Cert.Attn.Finite
-- ==== Proof.KInputs.lean ====
/-
  The three argument arrays of the kernel's program, read from the launch memory as plain functions of their
  coordinates: the activations `x[b, s, j]`, the fused projection weight `w[o, j]` and the output weight `wo[o, j]`.
-/
import proofs.«422417_j3848290697596_3_alg».proof.KernelIdeal
import Idealize.ShloMosaic.Lib.ValueIdx

noncomputable section

namespace Cert.KernelIdeal.Inputs

open Cert.KernelIdeal Idealize.ShloMosaic Idealize.ShloMosaic.TcCoe Idealize.SL.Sem Idealize.ShloMosaic.ValueIdx

variable (m : (ℓ : Loc nD τ sig) → Buf (Elt Ideal) ℓ)

/-- The activations at batch `b`, position `s`, feature `j`. -/
def xin (c : Dev nD) : Fin 4 → Fin 2048 → Fin 1024 → EReal := fun b s j => m ((c : Thread nD τ).loc main_arg0) (ix3 b s j)
/-- The fused projection weight at row `o`, feature `j`. -/
def win (c : Dev nD) : Fin 3072 → Fin 1024 → EReal := fun o j => m ((c : Thread nD τ).loc main_arg1) (ix2 o j)
/-- The output projection weight at row `o`, column `j`. -/
def woin (c : Dev nD) : Fin 1024 → Fin 1024 → EReal := fun o j => m ((c : Thread nD τ).loc main_arg2) (ix2 o j)

end Cert.KernelIdeal.Inputs

end
-- ==== Proof.Region0.lean ====
/-
  Region 0 of the kernel's program (the tiled projection `a · bᵀ`): what its output array holds after the region,
  index by index, from the two arrays the region finds at entry.
-/
import proofs.«422417_j3848290697596_3_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The activations' array as region 0 finds it (rows are batch-major positions). -/
abbrev aArr (c : Dev nD) : S8192x1024.Idx → EReal := V c main_v5
/-- The regrouped projection weight as region 0 finds it. -/
abbrev bArr (c : Dev nD) : S3072x1024.Idx → EReal := V c main_v3
/-- Region 0's output array after the region. -/
abbrev outArr (c : Dev nD) : S8192x3072.Idx → EReal := (dat0 (F := Ideal) V c).arrAt 2 cfg0.N

/-- The contraction's left index keeps the output's row on its free axis. -/
theorem lhs_free (i : S1024x3072.Idx) (q : dot_S1024x1024_S3072x1024_S1024x3072_1_1_0_0_n_n.contr.Idx) :
    (dot_S1024x1024_S3072x1024_S1024x3072_1_1_0_0_n_n.lhsIdx i q 0).val = (i 0).val := by
  unfold DotDims.lhsIdx
  rw [dif_neg (show ¬(0 : Fin S1024x1024.rank) ∈ dot_S1024x1024_S3072x1024_S1024x3072_1_1_0_0_n_n.lhsBatch by decide), dif_pos (show (0 : Fin S1024x1024.rank) ∈ dot_S1024x1024_S3072x1024_S1024x3072_1_1_0_0_n_n.lhsNonContracting by decide)]
  rfl
/-- The contraction's left index carries the summation coordinate on its contracted axis. -/
theorem lhs_contr (i : S1024x3072.Idx) (q : dot_S1024x1024_S3072x1024_S1024x3072_1_1_0_0_n_n.contr.Idx) :
    (dot_S1024x1024_S3072x1024_S1024x3072_1_1_0_0_n_n.lhsIdx i q 1).val = (q ⟨0, by decide⟩).val :=
  dot_S1024x1024_S3072x1024_S1024x3072_1_1_0_0_n_n.lhsIdx_val_of_single rfl i q
/-- The contraction's right index keeps the output's column on its free axis. -/
theorem rhs_free (i : S1024x3072.Idx) (q : dot_S1024x1024_S3072x1024_S1024x3072_1_1_0_0_n_n.contr.Idx) :
    (dot_S1024x1024_S3072x1024_S1024x3072_1_1_0_0_n_n.rhsIdx i q 0).val = (i 1).val := by
  unfold DotDims.rhsIdx
  rw [dif_neg (show ¬(0 : Fin S3072x1024.rank) ∈ dot_S1024x1024_S3072x1024_S1024x3072_1_1_0_0_n_n.rhsBatch by decide), dif_pos (show (0 : Fin S3072x1024.rank) ∈ dot_S1024x1024_S3072x1024_S1024x3072_1_1_0_0_n_n.rhsNonContracting by decide)]
  rfl
/-- The contraction's right index carries the summation coordinate on its contracted axis. -/
theorem rhs_contr (i : S1024x3072.Idx) (q : dot_S1024x1024_S3072x1024_S1024x3072_1_1_0_0_n_n.contr.Idx) :
    (dot_S1024x1024_S3072x1024_S1024x3072_1_1_0_0_n_n.rhsIdx i q 1).val = (q ⟨0, by decide⟩).val :=
  dot_S1024x1024_S3072x1024_S1024x3072_1_1_0_0_n_n.rhsIdx_val_of_single rfl i q

/-- The body's payload at entry `(p, q)` is the dot product of row `p` of the first block and row `q` of the second:
    the narrowing casts are the identity on extended reals and the accumulator is the zero splat. -/
theorem payload_apply (x0 : Vec Ideal S1024x1024 .f32) (x1 : Vec Ideal S3072x1024 .bf16) (p : Fin 1024) (q : Fin 3072) :
    k0_pay1 x0 x1 (ix2 p q) = ∑ j : Fin 1024, x0 (ix2 p j) * x1 (ix2 q j) := by
  unfold k0_pay1
  rw [truncf_apply, shapeCast_self, shapeCast_self]
  simp only [matmul]
  rw [Ideal.matmul_constant_zero_apply,
    ← Equiv.sum_comp (contrEquiv1 dot_S1024x1024_S3072x1024_S1024x3072_1_1_0_0_n_n 1024 rfl rfl).symm]
  refine Finset.sum_congr rfl fun k _ => ?_
  have hk := contrEquiv1_symm_val dot_S1024x1024_S3072x1024_S1024x3072_1_1_0_0_n_n 1024 rfl rfl k
  have el : dot_S1024x1024_S3072x1024_S1024x3072_1_1_0_0_n_n.lhsIdx (ix2 p q) ((contrEquiv1 dot_S1024x1024_S3072x1024_S1024x3072_1_1_0_0_n_n 1024 rfl rfl).symm k) = ix2 p k := funext fun a => Fin.ext (by
    match a with
    | ⟨0, _⟩ => exact lhs_free _ _
    | ⟨1, _⟩ => exact (lhs_contr _ _).trans hk)
  have er : dot_S1024x1024_S3072x1024_S1024x3072_1_1_0_0_n_n.rhsIdx (ix2 p q) ((contrEquiv1 dot_S1024x1024_S3072x1024_S1024x3072_1_1_0_0_n_n 1024 rfl rfl).symm k) = ix2 q k := funext fun a => Fin.ext (by
    match a with
    | ⟨0, _⟩ => exact rhs_free _ _
    | ⟨1, _⟩ => exact (rhs_contr _ _).trans hk)
  rw [el, er]
  rfl

/-- The all-zero offsets of a whole-block access, however the zeros are spelt. -/
theorem zero_offsets : (![0, 0] : Fin 2 → Nat) = fun _ => 0 := funext fun a => by fin_cases a <;> rfl

/-- What the region's output array ends holding: entry `(r, n)` is the dot product of row `r` of the activations' array
    and row `n` of the weights' array. -/
def rowDots (c : Dev nD) : S8192x3072.Idx → EReal := fun i =>
  ∑ j : Fin 1024, aArr V c (ix2 (⟨(i 0).val, (i 0).isLt⟩ : Fin 8192) j) * bArr V c (ix2 (⟨(i 1).val, (i 1).isLt⟩ : Fin 3072) j)

/-- The three index maps over the grid: the activations' block moves down the rows with the output's block, at column block
    zero; the weights' block stays at the origin; the output's block is at column block zero. -/
theorem block_offsets : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block of the output array is some grid point's. -/
theorem row_block_onto : ∀ q0 : Fin 8, ∃ t : Fin cfg0.N, win0_2.index t = ![q0.val, 0] :=
  (by decide +kernel : ∀ q0 : Fin 8, ∃ t : Fin grid0.N, win0_2.index t = ![q0.val, 0])

/-- The activations' block at point `t`, at `(p, j)`, is the activations' array at the row the output's block puts `p` on. -/
theorem aBlock_apply (c : Dev nD) (t : Fin cfg0.N) (p : Fin 1024) (j : Fin 1024) (i : S8192x1024.Idx)
    (h0 : (i 0).val = win0_2.index t (0 : Fin 2) * 1024 + p.val) (h1 : (i 1).val = j.val) :
    (iblk0 V c 0 t : Vec Ideal S1024x1024 .f32) (ix2 p j) = aArr V c i := by
  obtain ⟨e0, e1, -⟩ := block_offsets t
  unfold iblk0
  show V c main_v5 (((cfg0.win 0).blk t).view.emb (ix2 p j)) = V c main_v5 i
  refine congrArg (V c main_v5) ?_
  funext a; apply Fin.ext
  match a with
  | ⟨0, _⟩ => show win0_0.index t (0 : Fin 2) * 1024 + 1 * p.val = (i 0).val; omega
  | ⟨1, _⟩ => show win0_0.index t (1 : Fin 2) * 1024 + 1 * j.val = (i 1).val; omega

/-- The weights' block at every point is the whole weights' array. -/
theorem bBlock_apply (c : Dev nD) (t : Fin cfg0.N) (q : Fin 3072) (j : Fin 1024) (i : S3072x1024.Idx)
    (h0 : (i 0).val = q.val) (h1 : (i 1).val = j.val) :
    (iblk0 V c 1 t : Vec Ideal S3072x1024 .bf16) (ix2 q j) = bArr V c i := by
  obtain ⟨-, -, e2, e3, -⟩ := block_offsets t
  unfold iblk0
  show V c main_v3 (((cfg0.win 1).blk t).view.emb (ix2 q j)) = V c main_v3 i
  refine congrArg (V c main_v3) ?_
  funext a; apply Fin.ext
  match a with
  | ⟨0, _⟩ => show win0_1.index t (0 : Fin 2) * 3072 + 1 * q.val = (i 0).val; omega
  | ⟨1, _⟩ => show win0_1.index t (1 : Fin 2) * 1024 + 1 * j.val = (i 1).val; omega

/-- The payload of the two blocks at point `t`, at `(p, q)`, is `rowDots` at the array index the output's block puts `(p, q)` on. -/
theorem point_apply (c : Dev nD) (t : Fin cfg0.N) (p : Fin 1024) (q : Fin 3072) :
    k0_pay1 (iblk0 V c 0 t : Vec Ideal S1024x1024 .f32) (iblk0 V c 1 t : Vec Ideal S3072x1024 .bf16) (ix2 p q)
      = rowDots V c (((cfg0.win 2).blk t).view.emb (ix2 p q)) := by
  obtain ⟨-, -, e2, -, e4⟩ := block_offsets t
  rw [payload_apply]
  unfold rowDots
  refine Finset.sum_congr rfl fun j _ => ?_
  refine congrArg₂ (· * ·) (aBlock_apply V c t p j _ ?_ rfl) (bBlock_apply V c t q j _ ?_ rfl)
  · show win0_2.index t (0 : Fin 2) * 1024 + 1 * p.val = win0_2.index t (0 : Fin 2) * 1024 + p.val; omega
  · show win0_2.index t (1 : Fin 2) * 3072 + 1 * q.val = q.val; omega

/-- The same at any index of the block. -/
theorem point_value (c : Dev nD) (t : Fin cfg0.N) (y : S1024x3072.Idx) :
    k0_pay1 (iblk0 V c 0 t : Vec Ideal S1024x1024 .f32) (iblk0 V c 1 t : Vec Ideal S3072x1024 .bf16) y
      = rowDots V c (((cfg0.win 2).blk t).view.emb y) := by
  obtain ⟨p, q, rfl⟩ : ∃ (p : Fin 1024) (q : Fin 3072), y = ix2 p q := ⟨y 0, y 1, eq_ix2 y⟩
  exact point_apply V c t p q

/-- What point `t` writes back is block `t` of `rowDots`. -/
theorem flushed_eq (c : Dev nD) (t : Fin cfg0.N) :
    (dat0 V c).flushed 2 t = ((cfg0.win 2).blk t).view.read (Elt Ideal) (rowDots V c) := by
  show (cfg0.win 2).cut (grid0.coords t) ((dat0 V c).after 2 t) = _
  rw [after0_2]
  unfold out0_2
  rw [View.canon_unit_zero zero_offsets]
  simp only [View.ld_unit_zero (S := S1024x1024) zero_offsets, View.ld_unit_zero (S := S3072x1024) zero_offsets]
  funext y
  exact point_value V c t y

/-- An index of the output array is in point `t`'s block iff each coordinate is in the block's range on its axis. -/
theorem mem_blk (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v6).slice (win0_2.rect t)).set ↔ _
  rw [View.set_slice_whole, Rect.mem_set_unit]
  exact Iff.rfl

/-- The row blocks tile the output array: index `(r, n)` lies in the block of the point whose row block is `r / 1024`. -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ := row_block_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 3072 ≤ (i 1).val ∧ (i 1).val < win0_2.index t (1 : Fin 2) * 3072 + 3072; omega

/-- After region 0, entry `(r, n)` of its output array is the dot product of row `r` of the activations' array and
    row `n` of the weights' array, as the region found them. -/
theorem region0_value (c : Dev nD) (r : Fin 8192) (n : Fin 3072) :
    outArr V c (ix2 r n) = ∑ j : Fin 1024, aArr V c (ix2 r j) * bArr V c (ix2 n j) := by
  show (dat0 V c).arrAt 2 cfg0.N (ix2 r n) = _
  rw [(dat0 V c).arrAt_eq_of_cover 2 (rowDots V c) (fun t _ => flushed_eq V c t) cover]
  rfl

end Cert.KernelIdeal.Region0

end
-- ==== Proof.Host.lean ====
/-
  What region 1 of the kernel's program finds at entry, from the launch memory: its first operand is the fused
  projection `x · wᵀ` regrouped part-major — column `p·1024 + h·64 + d` holds feature `d` of head `h` of part `p`,
  which is row `h·192 + p·64 + d` of the fused weight — and its second operand is the output weight itself.
-/
import proofs.«422417_j3848290697596_3_alg».proof.Proof.Region0
import proofs.«422417_j3848290697596_3_alg».proof.Proof.KInputs
import proofs.«422417_j3848290697596_3_alg».proof.Proof.Spec
import Idealize.ShloMosaic.Lib.StableHlo.Run
import Idealize.ShloMosaic.Lib.Pipeline.Value
import Idealize.ShloMosaic.Lib.ValueIdx
import Mathlib.Algebra.BigOperators.Group.Finset.Basic

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- Region 1's first operand as the region finds it. -/
abbrev qkvEntry (c : Dev nD) : S4x2048x3072.Idx → EReal := V3 (F := Ideal) m ρ c main_v7
/-- Region 1's second operand as the region finds it. -/
abbrev woEntry (c : Dev nD) : S1024x1024.Idx → EReal := V3 (F := Ideal) m ρ c main_v4

/-- The activations as launched. -/
abbrev xArg (c : Dev nD) : S4x2048x1024.Idx → EReal := m ((c : Thread nD τ).loc main_arg0)
/-- The fused projection weight as launched. -/
abbrev wArg (c : Dev nD) : S3072x1024.Idx → EReal := m ((c : Thread nD τ).loc main_arg1)
/-- The output weight as launched. -/
abbrev woArg (c : Dev nD) : S1024x1024.Idx → EReal := m ((c : Thread nD τ).loc main_arg2)

/-! ## What the host operations before region 0 leave in the buffers the regions read -/

/-- Region 0's first operand is the activations with batch and position merged into one row axis. -/
theorem v5_eq (c : Dev nD) :
    (V1 (F := Ideal) m ρ c main_v5 : S8192x1024.Idx → EReal)
      = shapeCast S8192x1024 (xArg m c) shapeCasts_S4x2048x1024_S8192x1024 := by
  dsimp only [V1, W1, hostOps0]; after_results <;> rfl

/-- Region 0's second operand is the fused weight with its rows split as (head, part, feature), the first two
    axes exchanged, the rows merged again, and the format narrowed. -/
theorem v3_eq (c : Dev nD) :
    (V1 (F := Ideal) m ρ c main_v3 : S3072x1024.Idx → EReal)
      = (truncf (F := Ideal) (s := S3072x1024) (φ := .f32) .bf16
          (shapeCast S3072x1024
            (transpose S3x16x64x1024 [1, 0, 2, 3]
              (shapeCast S16x3x64x1024 (wArg m c) shapeCasts_S3072x1024_S16x3x64x1024)
              transposes_S16x3x64x1024_S3x16x64x1024_1_0_2_3)
            shapeCasts_S3x16x64x1024_S3072x1024)
          bitsLt_bf16_f32) := by
  dsimp only [V1, W1, hostOps0]; after_results <;> rfl

/-- The narrowed output weight, as the host operations before region 0 leave it. -/
theorem v4_eq (c : Dev nD) :
    (V1 (F := Ideal) m ρ c main_v4 : S1024x1024.Idx → EReal)
      = (truncf (F := Ideal) (s := S1024x1024) (φ := .f32) .bf16 (woArg m c) bitsLt_bf16_f32) := by
  dsimp only [V1, W1, hostOps0]; after_results <;> rfl

/-! ## The same arrays read at an index -/

/-- Row `b·2048 + s` of region 0's first operand is position `s` of batch `b` of the activations: both indices
    have row-major position `(b·2048 + s)·1024 + j`. -/
theorem aArr_apply (c : Dev nD) (b : Fin 4) (s : Fin 2048) (j : Fin 1024) :
    Region0.aArr (V1 (F := Ideal) m ρ) c (ix2 ⟨b.val * 2048 + s.val, by have := b.isLt; have := s.isLt; omega⟩ j)
      = xArg m c (ix3 b s j) := by
  refine (congrFun (v5_eq m ρ c) _).trans ?_
  exact shapeCast_apply (xArg m c) shapeCasts_S4x2048x1024_S8192x1024 _ (ix3 b s j)
    (by rewrite [Shape.rowMajor_val_three, Shape.rowMajor_val_two]
        show (b.val * 2048 + s.val) * 1024 + j.val = (b.val * 2048 + s.val) * 1024 + j.val
        rfl)

/-- Row `p·1024 + h·64 + d` of region 0's second operand is row `h·192 + p·64 + d` of the fused weight: the narrowing
    is the identity on extended reals; the merged row `(p, h, d)` of the exchanged array is entry `(h, p, d)` of the
    split one, whose row-major position in the fused weight is `((h·3 + p)·64 + d)·1024 + j`. -/
theorem bArr_apply (c : Dev nD) (p : Fin 3) (h : Fin 16) (d : Fin 64) (j : Fin 1024) :
    Region0.bArr (V1 (F := Ideal) m ρ) c
        (ix2 ⟨p.val * 1024 + h.val * 64 + d.val, by have := p.isLt; have := h.isLt; have := d.isLt; omega⟩ j)
      = wArg m c (ix2 ⟨h.val * 192 + p.val * 64 + d.val, by have := p.isLt; have := h.isLt; have := d.isLt; omega⟩ j) := by
  have hp := p.isLt; have hh := h.isLt; have hd := d.isLt; have hj := j.isLt
  refine (congrFun (v3_eq m ρ c) _).trans ?_
  refine (truncf_apply _ bitsLt_bf16_f32 _).trans ?_
  refine (shapeCast_apply _ shapeCasts_S3x16x64x1024_S3072x1024 _ (ix4 p h d j) ?_).trans ?_
  · rewrite [Shape.rowMajor_val_four, Shape.rowMajor_val_two]
    show ((p.val * 16 + h.val) * 64 + d.val) * 1024 + j.val = (p.val * 1024 + h.val * 64 + d.val) * 1024 + j.val
    omega
  refine (transpose_apply [1, 0, 2, 3] _ transposes_S16x3x64x1024_S3x16x64x1024_1_0_2_3 _ (ix4 h p d j) (fun a => match a with
    | ⟨0, _⟩ => rfl
    | ⟨1, _⟩ => rfl
    | ⟨2, _⟩ => rfl
    | ⟨3, _⟩ => rfl)).trans ?_
  exact shapeCast_apply (wArg m c) shapeCasts_S3072x1024_S16x3x64x1024 _ _
    (by rewrite [Shape.rowMajor_val_two, Shape.rowMajor_val_four]
        show (h.val * 192 + p.val * 64 + d.val) * 1024 + j.val = ((h.val * 3 + p.val) * 64 + d.val) * 1024 + j.val
        omega)

/-! ## Region 1's entry -/

/-- Region 1's first operand is region 0's output array with its rows split into batch and position: the one host
    operation between the regions is that reshape, and region 0 leaves its output array in the buffer it reads. -/
theorem v7_eq (c : Dev nD) :
    (V3 (F := Ideal) m ρ c main_v7 : S4x2048x3072.Idx → EReal)
      = shapeCast S4x2048x3072 (Region0.outArr (V1 (F := Ideal) m ρ) c) shapeCasts_S8192x3072_S4x2048x3072 := by
  show StableHlo.after hostOps1 (W2 m ρ c) (Proc.devRef .tc main_v7) = _
  after_results
  have h : W2 (F := Ideal) m ρ c (Proc.devRef .tc main_v6) = (dat0 (F := Ideal) (V1 m ρ) c).arrAt 2 cfg0.N := W2_arr m ρ c 2
  rw [h]
  rfl

/-- Nothing after the host operations before region 0 writes the narrowed output weight: region 0 has no window on
    it and the reshape between the regions writes another buffer. -/
theorem v4_entry (c : Dev nD) : V3 (F := Ideal) m ρ c main_v4 = V1 (F := Ideal) m ρ c main_v4 :=
  calc W3 (F := Ideal) m ρ c (Proc.devRef .tc main_v4)
    _ = W2 m ρ c (Proc.devRef .tc main_v4) := StableHlo.after_of_forall_not_mem (b := Proc.devRef .tc main_v4) _ _ (List.forall_iff_forall_mem.mp (by
          simp only [hostOps1, List.Forall, StableHlo.reshape_writes, Finset.mem_singleton]
          exact StableHlo.devRef_ne_of_ne (by decide)))
    _ = W1 m ρ c (Proc.devRef .tc main_v4) := W2_of_ne m ρ c main_v4 (by decide)

/-! ## The two operands from the launch arrays -/

/-- Column `p·1024 + h·64 + d` of region 1's first operand, at batch `b` and position `s`, is part `p` of the fused
    projection of the launch arrays at head `h`, feature `d`. -/
theorem entry1_qkv (c : Dev nD) (b : Fin 4) (s : Fin 2048) (p : Fin 3) (h : Fin 16) (d : Fin 64) :
    qkvEntry m ρ c (ix3 b s ⟨p.val * 1024 + h.val * 64 + d.val, by have := p.isLt; have := h.isLt; have := d.isLt; omega⟩)
      = Cert.Attn.part (Inputs.xin m c) (Inputs.win m c) p b h s d := by
  have hb := b.isLt; have hs := s.isLt; have hp := p.isLt; have hh := h.isLt; have hd := d.isLt
  -- the reshape: entry `(b, s, n)` of the operand is entry `(b·2048 + s, n)` of region 0's output array
  refine (congrFun (v7_eq m ρ c) _).trans ?_
  refine (shapeCast_apply (Region0.outArr (V1 (F := Ideal) m ρ) c) shapeCasts_S8192x3072_S4x2048x3072 _
    (ix2 ⟨b.val * 2048 + s.val, by omega⟩ ⟨p.val * 1024 + h.val * 64 + d.val, by omega⟩) ?_).trans ?_
  · rewrite [Shape.rowMajor_val_two, Shape.rowMajor_val_three]
    show (b.val * 2048 + s.val) * 3072 + (p.val * 1024 + h.val * 64 + d.val)
      = (b.val * 2048 + s.val) * 3072 + (p.val * 1024 + h.val * 64 + d.val)
    rfl
  -- region 0's output is the dot product of the two rows it found; read both rows from the launch arrays
  refine (Region0.region0_value (V1 (F := Ideal) m ρ) c _ _).trans ?_
  unfold Cert.Attn.part Cert.Attn.proj
  refine Finset.sum_congr rfl fun j _ => ?_
  rw [aArr_apply m ρ c b s j, bArr_apply m ρ c p h d j]
  rfl

/-- Region 1's second operand is the launch output weight. -/
theorem entry1_wo (c : Dev nD) (o j : Fin 1024) : woEntry m ρ c (ix2 o j) = Inputs.woin m c o j := by
  refine (congrFun (v4_entry m ρ c) _).trans ?_
  refine (congrFun (v4_eq m ρ c) _).trans ?_
  exact truncf_apply _ bitsLt_bf16_f32 _

end Cert.KernelIdeal.Host

end
-- ==== Proof.Region1Head.lean ====
/-
  The fused attention body computes its sixteen heads one after the other, each from the same three loaded slabs
  (queries, keys, values) sliced at the head's sixty-four columns, and stores each head's quotient into the head's
  columns of a scratch tile. Written once as a function of the column offset (`headBlock`), every one of the sixteen
  stored values is that function at its offset: the same operations on the same operands, by unfolding.
-/
import proofs.«422417_j3848290697596_3_alg».proof.Proof.Gen.KernelIdeal.Skeleton

set_option maxRecDepth 16384

noncomputable section

namespace Cert.KernelIdeal.Region1

open Idealize.ShloMosaic Idealize.ShloMosaic.TcCoe Idealize.SL.Sem
open Cert.KernelIdeal Cert.KernelIdeal.Gen

variable {F : FTy → Type} [FloatOps F]

/-- One head of the fused attention body, as the body computes it from the three loaded slabs: the head's
    columns of the query, key and value slabs (a slice at column offset `off`), the scaled logits `q · kᵀ · 2⁻³`,
    their row maximum, the exponentials of the differences, the row sums, the weighted values, and the quotient. -/
def headBlock (off : Fin 2 → Nat) (hq : S256x1024.Slices off S256x64) (hk : S2048x1024.Slices off S2048x64)
    (q : FVec F S256x1024 .bf16) (k v : FVec F S2048x1024 .bf16) : FVec F S256x64 .bf16 :=
  have qh : FVec F S256x64 .bf16 := extractStridedSlice S256x64 off q hq
  have kh : FVec F S2048x64 .bf16 := extractStridedSlice S2048x64 off k hk
  have vh : FVec F S2048x64 .bf16 := extractStridedSlice S2048x64 off v hk
  have s : FVec F S256x2048 .f32 := mulf (matmul dot_S256x64_S2048x64_S256x2048_1_1_0_0_n_n none qh kh (constant S256x2048 .f32 0x00000000#32)) (broadcast S256x2048 (Scalar.ofBits .f32 0x3E000000#32))
  have mx : FVec F S256x1 .f32 := shapeCast S256x1 (multiReduction .maximumf [1] S256 s 0xFF800000#32 reduces_S256x2048_S256 (.inl rfl) rfl) shapeCasts_S256_S256x1
  have p : FVec F S256x2048 .f32 := exp (subf s (broadcastTo S256x2048 mx broadcasts_S256x1_S256x2048))
  have l : FVec F S256x1 .f32 := shapeCast S256x1 (multiReduction .add [1] S256 p 0x00000000#32 reduces_S256x2048_S256 (.inl rfl) rfl) shapeCasts_S256_S256x1
  have pv : FVec F S256x64 .f32 := matmul dot_S256x2048_S2048x64_S256x64_1_0_0_1_n_n none (truncf .bf16 p bitsLt_bf16_f32) vh (constant S256x64 .f32 0x00000000#32)
  shapeCast S256x64 (truncf .bf16 (divf pv (broadcastTo S256x64 l broadcasts_S256x1_S256x64)) bitsLt_bf16_f32) shapeCasts_S256x64_S256x64

variable (a : Vec F S1x256x1024 .bf16) (b c : Vec F S1x2048x1024 .bf16)

/-! The value stored for head `h` is `headBlock` at column offset `64·h` of the three slabs (each slab a loaded
    block with its unit axis dropped: `k1_pay3`, `k1_pay4`, `k1_pay5`). -/

theorem pay_head0 : k1_pay6 a b c
    = headBlock ![0, 0] slices_S256x1024_o0_0_S256x64 slices_S2048x1024_o0_0_S2048x64 (k1_pay3 a) (k1_pay4 b) (k1_pay5 c) := rfl
theorem pay_head1 : k1_pay10 (k1_pay7 c) (k1_pay8 a b) (k1_pay9 a b)
    = headBlock ![0, 64] slices_S256x1024_o0_64_S256x64 slices_S2048x1024_o0_64_S2048x64 (k1_pay3 a) (k1_pay4 b) (k1_pay5 c) := rfl
theorem pay_head2 : k1_pay11 (k1_pay3 a) (k1_pay4 b) (k1_pay5 c)
    = headBlock ![0, 128] slices_S256x1024_o0_128_S256x64 slices_S2048x1024_o0_128_S2048x64 (k1_pay3 a) (k1_pay4 b) (k1_pay5 c) := rfl
theorem pay_head3 : k1_pay14 (k1_pay12 (k1_pay5 c)) (k1_pay13 (k1_pay3 a) (k1_pay4 b))
    = headBlock ![0, 192] slices_S256x1024_o0_192_S256x64 slices_S2048x1024_o0_192_S2048x64 (k1_pay3 a) (k1_pay4 b) (k1_pay5 c) := rfl
theorem pay_head4 : k1_pay15 (k1_pay3 a) (k1_pay4 b) (k1_pay5 c)
    = headBlock ![0, 256] slices_S256x1024_o0_256_S256x64 slices_S2048x1024_o0_256_S2048x64 (k1_pay3 a) (k1_pay4 b) (k1_pay5 c) := rfl
theorem pay_head5 : k1_pay18 (k1_pay16 (k1_pay5 c)) (k1_pay17 (k1_pay3 a) (k1_pay4 b))
    = headBlock ![0, 320] slices_S256x1024_o0_320_S256x64 slices_S2048x1024_o0_320_S2048x64 (k1_pay3 a) (k1_pay4 b) (k1_pay5 c) := rfl
theorem pay_head6 : k1_pay19 (k1_pay3 a) (k1_pay4 b) (k1_pay5 c)
    = headBlock ![0, 384] slices_S256x1024_o0_384_S256x64 slices_S2048x1024_o0_384_S2048x64 (k1_pay3 a) (k1_pay4 b) (k1_pay5 c) := rfl
theorem pay_head7 : k1_pay23 (k1_pay20 (k1_pay5 c)) (k1_pay21 (k1_pay3 a) (k1_pay4 b)) (k1_pay22 (k1_pay3 a) (k1_pay4 b))
    = headBlock ![0, 448] slices_S256x1024_o0_448_S256x64 slices_S2048x1024_o0_448_S2048x64 (k1_pay3 a) (k1_pay4 b) (k1_pay5 c) := rfl
theorem pay_head8 : k1_pay24 (k1_pay3 a) (k1_pay4 b) (k1_pay5 c)
    = headBlock ![0, 512] slices_S256x1024_o0_512_S256x64 slices_S2048x1024_o0_512_S2048x64 (k1_pay3 a) (k1_pay4 b) (k1_pay5 c) := rfl
theorem pay_head9 : k1_pay29 (k1_pay25 (k1_pay5 c)) (k1_pay27 (k1_pay3 a) (k1_pay4 b)) (k1_pay28 (k1_pay3 a) (k1_pay4 b)) (constant S256x64 .f32 0x00000000#32)
    = headBlock ![0, 576] slices_S256x1024_o0_576_S256x64 slices_S2048x1024_o0_576_S2048x64 (k1_pay3 a) (k1_pay4 b) (k1_pay5 c) := rfl
theorem pay_head10 : k1_pay30 (k1_pay3 a) (k1_pay4 b) (k1_pay5 c)
    = headBlock ![0, 640] slices_S256x1024_o0_640_S256x64 slices_S2048x1024_o0_640_S2048x64 (k1_pay3 a) (k1_pay4 b) (k1_pay5 c) := rfl
theorem pay_head11 : k1_pay34 (k1_pay32 (k1_pay3 a) (k1_pay4 b) (k1_pay5 c)) (k1_pay33 (k1_pay3 a) (k1_pay4 b))
    = headBlock ![0, 704] slices_S256x1024_o0_704_S256x64 slices_S2048x1024_o0_704_S2048x64 (k1_pay3 a) (k1_pay4 b) (k1_pay5 c) := rfl
theorem pay_head12 : k1_pay35 (k1_pay3 a) (k1_pay4 b) (k1_pay5 c)
    = headBlock ![0, 768] slices_S256x1024_o0_768_S256x64 slices_S2048x1024_o0_768_S2048x64 (k1_pay3 a) (k1_pay4 b) (k1_pay5 c) := rfl
theorem pay_head13 : k1_pay37 (k1_pay36 (k1_pay3 a) (k1_pay4 b) (k1_pay5 c))
    = headBlock ![0, 832] slices_S256x1024_o0_832_S256x64 slices_S2048x1024_o0_832_S2048x64 (k1_pay3 a) (k1_pay4 b) (k1_pay5 c) := rfl
theorem pay_head14 : k1_pay38 (k1_pay3 a) (k1_pay4 b) (k1_pay5 c)
    = headBlock ![0, 896] slices_S256x1024_o0_896_S256x64 slices_S2048x1024_o0_896_S2048x64 (k1_pay3 a) (k1_pay4 b) (k1_pay5 c) := rfl
theorem pay_head15 : k1_pay1 (k1_pay39 (k1_pay3 a) (k1_pay4 b) (k1_pay5 c))
    = headBlock ![0, 960] slices_S256x1024_o0_960_S256x64 slices_S2048x1024_o0_960_S2048x64 (k1_pay3 a) (k1_pay4 b) (k1_pay5 c) := rfl

end Cert.KernelIdeal.Region1

end
-- ==== Proof.HeadValue.lean ====
/-
  One head of the fused attention body, read at an entry over the extended reals: row `r`, feature `d` of the head
  at column offset `off` is the softmax-weighted sum of the head's value columns divided once by the normaliser —
  the specification's `headK` of whatever projections the three slabs' columns `off … off+63` are.
-/
import proofs.«422417_j3848290697596_3_alg».proof.Proof.Region1Head
import proofs.«422417_j3848290697596_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen

/-! ## The two contractions' operand indices

The logits contract the feature axis of both operands: output entry `(i₀, i₁)` with contraction coordinate `q` reads the left
operand at `(i₀, q)` and the right at `(i₁, q)`. The weighted values contract the key axis: entry `(i₀, i₁)` reads the left
operand at `(i₀, q)` and the right at `(q, i₁)`. One lemma per operand axis. -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The logits' contraction at `(r, kk)`: the sum over the sixty-four features of query row `r` times key row `kk`. -/
theorem matmul_qk_apply (lhs : FVec Ideal S256x64 .bf16) (rhs : FVec Ideal S2048x64 .bf16) (r : Fin 256) (kk : Fin 2048) :
    matmul (F := Ideal) dot_S256x64_S2048x64_S256x2048_1_1_0_0_n_n none lhs rhs (constant (F := Ideal) S256x2048 .f32 0x00000000#32) (ix2 r kk)
      = ∑ dd : Fin 64, lhs (ix2 r dd) * rhs (ix2 kk dd) := by
  show FloatOps.matmul dot_S256x64_S2048x64_S256x2048_1_1_0_0_n_n none lhs rhs (constant (F := Ideal) S256x2048 .f32 0x00000000#32) (ix2 r kk) = _
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 r kk) ((ValueIdx.contrEquiv1 dot_S256x64_S2048x64_S256x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 r kk) ((ValueIdx.contrEquiv1 dot_S256x64_S2048x64_S256x2048_1_1_0_0_n_n 64 rfl rfl).symm k) = ix2 kk k := funext fun a => Fin.ext (by
    match a with
    | ⟨0, _⟩ => exact rhs_qk_0 _ _
    | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The weighted values' contraction at `(r, d)`: the sum over the keys of the weight at `(r, kk)` times the value at `(kk, d)`. -/
theorem matmul_pv_apply (lhs : FVec Ideal S256x2048 .bf16) (rhs : FVec Ideal S2048x64 .bf16) (r : Fin 256) (d : Fin 64) :
    matmul (F := Ideal) dot_S256x2048_S2048x64_S256x64_1_0_0_1_n_n none lhs rhs (constant (F := Ideal) S256x64 .f32 0x00000000#32) (ix2 r d)
      = ∑ kk : Fin 2048, lhs (ix2 r kk) * rhs (ix2 kk d) := by
  show FloatOps.matmul dot_S256x2048_S2048x64_S256x64_1_0_0_1_n_n none lhs rhs (constant (F := Ideal) S256x64 .f32 0x00000000#32) (ix2 r d) = _
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d) ((ValueIdx.contrEquiv1 dot_S256x2048_S2048x64_S256x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 r d) ((ValueIdx.contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## Layout operations at an entry -/

/-- A column slice of the query slab at `(r, dd)` is the slab at column `off + dd`. -/
theorem sliceQ_apply (off : Nat) (hoff : off + 64 ≤ 1024) (hq : S256x1024.Slices ![0, off] S256x64)
    (q : FVec Ideal S256x1024 .bf16) (r : Fin 256) (dd : Fin 64) :
    extractStridedSlice S256x64 ![0, off] q hq (ix2 r dd) = q (ix2 r ⟨off + dd.val, by have := dd.isLt; omega⟩) :=
  slice2_axis1_apply off q hq r dd ⟨off + dd.val, by have := dd.isLt; omega⟩ rfl

/-- A column slice of a key or value slab at `(kk, dd)` is the slab at column `off + dd`. -/
theorem sliceK_apply (off : Nat) (hoff : off + 64 ≤ 1024) (hk : S2048x1024.Slices ![0, off] S2048x64)
    (k : FVec Ideal S2048x1024 .bf16) (kk : Fin 2048) (dd : Fin 64) :
    extractStridedSlice S2048x64 ![0, off] k hk (ix2 kk dd) = k (ix2 kk ⟨off + dd.val, by have := dd.isLt; omega⟩) :=
  slice2_axis1_apply off k hk kk dd ⟨off + dd.val, by have := dd.isLt; omega⟩ rfl

/-- A vector of length `a` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, c)`, the column at row `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two row reductions -/

/-- The row index with a column inserted is the entry `(r, kk)`. -/
theorem lift_row (r : Fin 256) (kk : Fin 2048) :
    reduces_S256x2048_S256.lift (ix1 r) kk = ix2 r kk :=
  funext fun a => Fin.ext (by
    match a with
    | ⟨0, _⟩ => rfl
    | ⟨1, _⟩ => rfl)

/-- The row maximum at `r`: the fold of `max` from the start word's value over the row's entries. -/
theorem rowMax_apply (x : FVec Ideal S256x2048 .f32) (r : Fin 256) :
    multiReduction (F := Ideal) .maximumf [1] S256 x 0xFF800000#32 reduces_S256x2048_S256 (.inl rfl) rfl (ix1 r)
      = (Finset.univ : Finset (Fin 2048)).fold max (Ideal.ofBits .f32 0xFF800000#32) (fun kk => x (ix2 r kk)) := by
  refine (Ideal.multiReduction_maximumf_single x _ reduces_S256x2048_S256 (.inl rfl) rfl (ix1 r)).trans ?_
  exact congrArg (Finset.fold max (Ideal.ofBits .f32 0xFF800000#32) · (Finset.univ : Finset (Fin 2048)))
    (funext fun kk => congrArg x (lift_row r kk))

/-- The row sum at `r`: the sum of the row's entries. -/
theorem rowSum_apply (x : FVec Ideal S256x2048 .f32) (r : Fin 256) :
    multiReduction (F := Ideal) .add [1] S256 x 0x00000000#32 reduces_S256x2048_S256 (.inl rfl) rfl (ix1 r)
      = ∑ kk : Fin 2048, x (ix2 r kk) := by
  refine (Ideal.multiReduction_add_single x _ reduces_S256x2048_S256 (.inl rfl) rfl (ix1 r)).trans ?_
  exact Finset.sum_congr rfl fun kk _ => congrArg x (lift_row r kk)

/-! ## The head, stage by stage -/

/-- A row statistic kept as a column and spread over the 2048 key columns reads, at `(r, kk)`, the statistic of row `r`. -/
theorem colSpread2048_apply (m : FVec Ideal S256 .f32) (r : Fin 256) (kk : Fin 2048) :
    broadcastTo S256x2048 (shapeCast S256x1 m shapeCasts_S256_S256x1) broadcasts_S256x1_S256x2048 (ix2 r kk) = m (ix1 r) :=
  (broadcastTo_a1_ab_apply _ broadcasts_S256x1_S256x2048 r kk).trans (shapeCast_a_a1_apply m shapeCasts_S256_S256x1 r 0)

/-- The same spread over the 64 feature columns. -/
theorem colSpread64_apply (m : FVec Ideal S256 .f32) (r : Fin 256) (d : Fin 64) :
    broadcastTo S256x64 (shapeCast S256x1 m shapeCasts_S256_S256x1) broadcasts_S256x1_S256x64 (ix2 r d) = m (ix1 r) :=
  (broadcastTo_a1_ab_apply _ broadcasts_S256x1_S256x64 r d).trans (shapeCast_a_a1_apply m shapeCasts_S256_S256x1 r 0)

/-- The scaled logits at `(r, kk)`: if the query head's row `r` is `a` and the key head's row `kk` is `c`, their dot
    product times the value of the scale word. -/
theorem logits_apply (qh : FVec Ideal S256x64 .bf16) (kh : FVec Ideal S2048x64 .bf16) (r : Fin 256) (kk : Fin 2048)
    (a c : Fin 64 → EReal) (ha : ∀ dd, qh (ix2 r dd) = a dd) (hc : ∀ dd, kh (ix2 kk dd) = c dd) :
    mulf (matmul (F := Ideal) dot_S256x64_S2048x64_S256x2048_1_1_0_0_n_n none qh kh (constant (F := Ideal) S256x2048 .f32 0x00000000#32))
        (broadcast S256x2048 (Scalar.ofBits (F := Ideal) .f32 0x3E000000#32)) (ix2 r kk)
      = (∑ dd : Fin 64, a dd * c dd) * Ideal.ofBits .f32 0x3E000000#32 := by
  show matmul (F := Ideal) dot_S256x64_S2048x64_S256x2048_1_1_0_0_n_n none qh kh (constant (F := Ideal) S256x2048 .f32 0x00000000#32) (ix2 r kk)
      * Ideal.ofBits .f32 0x3E000000#32 = _
  rw [matmul_qk_apply]
  exact congrArg (· * Ideal.ofBits .f32 0x3E000000#32) (Finset.sum_congr rfl fun dd _ => by rw [ha dd, hc dd])

/-- The exponentials at `(r, kk)`: if row `r` of the logits is `lg`, the exponential of `lg kk` less the fold of `max`
    over the row from the value of the start word. -/
theorem expShift_apply (x : FVec Ideal S256x2048 .f32) (r : Fin 256) (lg : Fin 2048 → EReal) (hx : ∀ kk, x (ix2 r kk) = lg kk)
    (kk : Fin 2048) :
    exp (subf x (broadcastTo S256x2048 (shapeCast S256x1
        (multiReduction (F := Ideal) .maximumf [1] S256 x 0xFF800000#32 reduces_S256x2048_S256 (.inl rfl) rfl) shapeCasts_S256_S256x1)
        broadcasts_S256x1_S256x2048)) (ix2 r kk)
      = Ideal.exp (lg kk - (Finset.univ : Finset (Fin 2048)).fold max (Ideal.ofBits .f32 0xFF800000#32) lg) := by
  show Ideal.exp (x (ix2 r kk) - broadcastTo S256x2048 (shapeCast S256x1
        (multiReduction (F := Ideal) .maximumf [1] S256 x 0xFF800000#32 reduces_S256x2048_S256 (.inl rfl) rfl) shapeCasts_S256_S256x1)
        broadcasts_S256x1_S256x2048 (ix2 r kk)) = _
  rw [colSpread2048_apply, rowMax_apply, hx kk, show (fun kk' => x (ix2 r kk')) = lg from funext hx]

/-- The quotient at `(r, d)`: if row `r` of the weights is `w` and column `d` of the value head is `vv`, the weighted sum
    of the values divided by the sum of the weights. -/
theorem quotient_apply (p : FVec Ideal S256x2048 .f32) (vh : FVec Ideal S2048x64 .bf16) (r : Fin 256) (d : Fin 64)
    (w vv : Fin 2048 → EReal) (hp : ∀ kk, p (ix2 r kk) = w kk) (hv : ∀ kk, vh (ix2 kk d) = vv kk) :
    shapeCast S256x64 (truncf .bf16 (divf
        (matmul (F := Ideal) dot_S256x2048_S2048x64_S256x64_1_0_0_1_n_n none (truncf .bf16 p bitsLt_bf16_f32) vh (constant (F := Ideal) S256x64 .f32 0x00000000#32))
        (broadcastTo S256x64 (shapeCast S256x1
          (multiReduction (F := Ideal) .add [1] S256 p 0x00000000#32 reduces_S256x2048_S256 (.inl rfl) rfl) shapeCasts_S256_S256x1)
          broadcasts_S256x1_S256x64)) bitsLt_bf16_f32) shapeCasts_S256x64_S256x64 (ix2 r d)
      = Ideal.div (∑ kk : Fin 2048, w kk * vv kk) (∑ kk : Fin 2048, w kk) := by
  rw [shapeCast_self]
  show Ideal.div
      (matmul (F := Ideal) dot_S256x2048_S2048x64_S256x64_1_0_0_1_n_n none (truncf .bf16 p bitsLt_bf16_f32) vh (constant (F := Ideal) S256x64 .f32 0x00000000#32) (ix2 r d))
      (broadcastTo S256x64 (shapeCast S256x1
          (multiReduction (F := Ideal) .add [1] S256 p 0x00000000#32 reduces_S256x2048_S256 (.inl rfl) rfl) shapeCasts_S256_S256x1)
          broadcasts_S256x1_S256x64 (ix2 r d)) = _
  rw [matmul_pv_apply, colSpread64_apply, rowSum_apply]
  have e1 : ∑ kk : Fin 2048, truncf .bf16 p bitsLt_bf16_f32 (ix2 r kk) * vh (ix2 kk d) = ∑ kk : Fin 2048, w kk * vv kk :=
    Finset.sum_congr rfl fun kk _ => by rw [truncf_apply, hp kk, hv kk]
  have e2 : ∑ kk : Fin 2048, p (ix2 r kk) = ∑ kk : Fin 2048, w kk := Finset.sum_congr rfl fun kk _ => hp kk
  rw [e1, e2]

/-- If the query slab's row `r` at columns `off + dd` is `Q b h s dd`, the key slab's rows at those columns are
    `K b h kk dd` and the value slab's column `off + d` is `V b h kk d`, the head computed at offset `off` holds
    `headK Q K V b h s d` at `(r, d)`. -/
theorem headBlock_apply (off : Nat) (hoff : off + 64 ≤ 1024) (hq : S256x1024.Slices ![0, off] S256x64) (hk : S2048x1024.Slices ![0, off] S2048x64)
    (q : FVec Ideal S256x1024 .bf16) (k v : FVec Ideal S2048x1024 .bf16) (r : Fin 256) (d : Fin 64)
    (Q K V : Fin 4 → Fin 16 → Fin 2048 → Fin 64 → EReal) (b : Fin 4) (h : Fin 16) (s : Fin 2048)
    (hQ : ∀ dd : Fin 64, q (ix2 r ⟨off + dd.val, by have := dd.isLt; omega⟩) = Q b h s dd)
    (hK : ∀ (kk : Fin 2048) (dd : Fin 64), k (ix2 kk ⟨off + dd.val, by have := dd.isLt; omega⟩) = K b h kk dd)
    (hV : ∀ kk : Fin 2048, v (ix2 kk ⟨off + d.val, by have := d.isLt; omega⟩) = V b h kk d) :
    headBlock (F := Ideal) ![0, off] hq hk q k v (ix2 r d) = Cert.Attn.headK Q K V b h s d := by
  unfold headBlock
  exact quotient_apply _ _ r d (fun kk => Cert.Attn.weight Q K b h s kk) (fun kk => V b h kk d)
    (fun kk => expShift_apply _ r (fun kk' => Cert.Attn.logit Q K b h s kk')
      (fun kk' => logits_apply _ _ r kk' (fun dd => Q b h s dd) (fun dd => K b h kk' dd)
        (fun dd => (sliceQ_apply off hoff hq q r dd).trans (hQ dd))
        (fun dd => (sliceK_apply off hoff hk k kk' dd).trans (hK kk' dd))) kk)
    (fun kk => (sliceK_apply off hoff hk v kk d).trans (hV kk))

end Cert.KernelIdeal.Region1

end
-- ==== Proof.Region1Block.lean ====
/-
  One grid point of region 1 (the fused attention and output projection), read at an entry of the block it leaves in
  the output window's buffer: row `r` of the point's 256 query rows, output column `o`. If the rows of the point's
  slab are the projections `Q`, `K`, `V` of some batch `b` (queries in columns 0…1023, keys in 1024…2047, values in
  2048…3071, each head-major), the entry is the heads' outputs `headK`, concatenated head-major, times row `o` of the
  output weight block.

  The body writes head `h`'s 256 × 64 result into columns `64·h …` of a scratch tile, sixteen stores that tile it, then
  loads the tile whole and multiplies by the transposed weight block. Every stored value is the one head function at its
  offset, so the tile read back is ONE function of its index: the head output of the column's head at the column's
  feature. Which projections enter a head output is decided by the slab alone (`slabQ`, `slabK`, `slabV`), and a head
  output depends on the queries only through its own row.
-/
import proofs.«422417_j3848290697596_3_alg».proof.Proof.Gen.KernelIdeal.Frame
import proofs.«422417_j3848290697596_3_alg».proof.Proof.Region1Head
import proofs.«422417_j3848290697596_3_alg».proof.Proof.HeadValue
import proofs.«422417_j3848290697596_3_alg».proof.Proof.Spec
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.SL.Sem Idealize.ShloMosaic.Tactic Idealize.ShloMosaic.ValueIdx
open Cert.KernelIdeal Cert.KernelIdeal.Gen Cert.Attn

/-! ## The block as the body's operations on the scratch tile's stores -/

section Generic
variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- The sixteen stores into the scratch tile, last first: head `h`'s value through the head's columns. -/
def scratchPieces (q : FVec F S256x1024 .bf16) (k v : FVec F S2048x1024 .bf16) : List (View.Piece (Elt F) S256x1024 .bf16) :=
  [
   ⟨Rect.unit (s := S256x1024) ![0, 960] S256x64.size inb_S256x1024_S256x64_0_960, headBlock ![0, 960] slices_S256x1024_o0_960_S256x64 slices_S2048x1024_o0_960_S2048x64 q k v⟩,
   ⟨Rect.unit (s := S256x1024) ![0, 896] S256x64.size inb_S256x1024_S256x64_0_896, headBlock ![0, 896] slices_S256x1024_o0_896_S256x64 slices_S2048x1024_o0_896_S2048x64 q k v⟩,
   ⟨Rect.unit (s := S256x1024) ![0, 832] S256x64.size inb_S256x1024_S256x64_0_832, headBlock ![0, 832] slices_S256x1024_o0_832_S256x64 slices_S2048x1024_o0_832_S2048x64 q k v⟩,
   ⟨Rect.unit (s := S256x1024) ![0, 768] S256x64.size inb_S256x1024_S256x64_0_768, headBlock ![0, 768] slices_S256x1024_o0_768_S256x64 slices_S2048x1024_o0_768_S2048x64 q k v⟩,
   ⟨Rect.unit (s := S256x1024) ![0, 704] S256x64.size inb_S256x1024_S256x64_0_704, headBlock ![0, 704] slices_S256x1024_o0_704_S256x64 slices_S2048x1024_o0_704_S2048x64 q k v⟩,
   ⟨Rect.unit (s := S256x1024) ![0, 640] S256x64.size inb_S256x1024_S256x64_0_640, headBlock ![0, 640] slices_S256x1024_o0_640_S256x64 slices_S2048x1024_o0_640_S2048x64 q k v⟩,
   ⟨Rect.unit (s := S256x1024) ![0, 576] S256x64.size inb_S256x1024_S256x64_0_576, headBlock ![0, 576] slices_S256x1024_o0_576_S256x64 slices_S2048x1024_o0_576_S2048x64 q k v⟩,
   ⟨Rect.unit (s := S256x1024) ![0, 512] S256x64.size inb_S256x1024_S256x64_0_512, headBlock ![0, 512] slices_S256x1024_o0_512_S256x64 slices_S2048x1024_o0_512_S2048x64 q k v⟩,
   ⟨Rect.unit (s := S256x1024) ![0, 448] S256x64.size inb_S256x1024_S256x64_0_448, headBlock ![0, 448] slices_S256x1024_o0_448_S256x64 slices_S2048x1024_o0_448_S2048x64 q k v⟩,
   ⟨Rect.unit (s := S256x1024) ![0, 384] S256x64.size inb_S256x1024_S256x64_0_384, headBlock ![0, 384] slices_S256x1024_o0_384_S256x64 slices_S2048x1024_o0_384_S2048x64 q k v⟩,
   ⟨Rect.unit (s := S256x1024) ![0, 320] S256x64.size inb_S256x1024_S256x64_0_320, headBlock ![0, 320] slices_S256x1024_o0_320_S256x64 slices_S2048x1024_o0_320_S2048x64 q k v⟩,
   ⟨Rect.unit (s := S256x1024) ![0, 256] S256x64.size inb_S256x1024_S256x64_0_256, headBlock ![0, 256] slices_S256x1024_o0_256_S256x64 slices_S2048x1024_o0_256_S2048x64 q k v⟩,
   ⟨Rect.unit (s := S256x1024) ![0, 192] S256x64.size inb_S256x1024_S256x64_0_192, headBlock ![0, 192] slices_S256x1024_o0_192_S256x64 slices_S2048x1024_o0_192_S2048x64 q k v⟩,
   ⟨Rect.unit (s := S256x1024) ![0, 128] S256x64.size inb_S256x1024_S256x64_0_128, headBlock ![0, 128] slices_S256x1024_o0_128_S256x64 slices_S2048x1024_o0_128_S2048x64 q k v⟩,
   ⟨Rect.unit (s := S256x1024) ![0, 64] S256x64.size inb_S256x1024_S256x64_0_64, headBlock ![0, 64] slices_S256x1024_o0_64_S256x64 slices_S2048x1024_o0_64_S2048x64 q k v⟩,
   ⟨Rect.unit (s := S256x1024) ![0, 0] S256x64.size inb_S256x1024_S256x64_0_0, headBlock ![0, 0] slices_S256x1024_o0_0_S256x64 slices_S2048x1024_o0_0_S2048x64 q k v⟩
  ]

/-- The query rows, the key slab and the value slab the body loads from its first operand's block. -/
def qLoad (i : grid1.Coords) (x0 : Vec F S1x2048x3072 .bf16) : Vec F S1x256x1024 .bf16 :=
  View.ld x0 (Rect.unit (s := S1x2048x3072) (k1_off1 i) S1x256x1024.size (k1_off1_inb i))
def kLoad (x0 : Vec F S1x2048x3072 .bf16) : Vec F S1x2048x1024 .bf16 :=
  View.ld x0 (Rect.unit (s := S1x2048x3072) ![0, 0, 1024] S1x2048x1024.size inb_S1x2048x3072_S1x2048x1024_0_0_1024)
def vLoad (x0 : Vec F S1x2048x3072 .bf16) : Vec F S1x2048x1024 .bf16 :=
  View.ld x0 (Rect.unit (s := S1x2048x3072) ![0, 0, 2048] S1x2048x1024.size inb_S1x2048x3072_S1x2048x1024_0_0_2048)

/-- What the body leaves in the output window's buffer: the output projection of the scratch tile read back whole after
    its sixteen stores. -/
theorem out_eq (c : Dev nD) (i : grid1.Coords) (arg2 : Memref sig .tc .vmem S1x2048x3072 .bf16) (harg2 : arg2.IsWhole) (arg3 : Memref sig .tc .vmem S1024x1024 .bf16) (harg3 : arg3.IsWhole) (arg4 : Memref sig .tc .vmem S1x256x1024 .f32) (harg4 : arg4.IsWhole) (arg5 : Memref sig .tc .vmem S256x1024 .bf16) (harg5 : arg5.IsWhole)
    (x0 : Vec F S1x2048x3072 .bf16) (x1 : Vec F S1024x1024 .bf16) :
    out1_A_2 c i arg2 harg2 arg3 harg3 arg4 harg4 arg5 harg5 x0 x1
      = k1_pay2 (fun j => View.canon (scratchPieces (k1_pay3 (qLoad i x0)) (k1_pay4 (kLoad x0)) (k1_pay5 (vLoad x0)))
          ((Rect.unit (s := S256x1024) ![0, 0] S256x1024.size inb_S256x1024_S256x1024_0_0).toLoadRect.idx j)) x1 := by
  unfold out1_A_2
  rw [View.read_writes_eq_canon _ _ _ (cover1_A_2 c i arg2 harg2 arg3 harg3 arg4 harg4 arg5 harg5 x0 x1)]
  unfold kernelRun1_A
  dsimp only
  rw [View.canon_unit_zero zero3]
  sl_unfold_run_names
  rw [View.readCov_eq_canon']
  simp only [View.readAt_eq_ld, harg2.read_unread, harg3.read_unread, View.ld_unit_zero (S := S1024x1024) zero2]
  rfl

end Generic

/-! ## The output projection at an entry -/

theorem oproj_lhs_free (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem oproj_lhs_contr (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem oproj_rhs_free (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem oproj_rhs_contr (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The stored block at `(0, r, o)` is the dot product of row `r` of the tile and row `o` of the weight block. -/
theorem oproj_apply (a : Vec Ideal S256x1024 .bf16) (w : Vec Ideal S1024x1024 .bf16) (r : Fin 256) (o : Fin 1024) :
    k1_pay2 a w (ix3 0 r o) = ∑ cc : Fin 1024, a (ix2 r cc) * w (ix2 o cc) := by
  unfold k1_pay2
  refine (shapeCast_addUnit_apply ![256, 1024] _ _ _).trans ?_
  rw [show (fun a : Fin 2 => (ix3 (0 : Fin 1) r o) a.succ) = ix2 r o from funext fun a => by match a with | ⟨0, _⟩ => rfl | ⟨1, _⟩ => rfl]
  rw [shapeCast_self]
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r o) ((contrEquiv1 dot_S256x1024_S1024x1024_S256x1024_1_1_0_0_n_n 1024 rfl rfl).symm k) = ix2 r k := funext fun a => Fin.ext (by
    match a with
    | ⟨0, _⟩ => exact oproj_lhs_free _ _
    | ⟨1, _⟩ => exact (oproj_lhs_contr _ _).trans hk)
  have er : dot_S256x1024_S1024x1024_S256x1024_1_1_0_0_n_n.rhsIdx (ix2 r o) ((contrEquiv1 dot_S256x1024_S1024x1024_S256x1024_1_1_0_0_n_n 1024 rfl rfl).symm k) = ix2 o k := funext fun a => Fin.ext (by
    match a with
    | ⟨0, _⟩ => exact oproj_rhs_free _ _
    | ⟨1, _⟩ => exact (oproj_rhs_contr _ _).trans hk)
  rw [el, er]

/-! ## The three loaded slabs at an entry -/

/-- The query rows loaded at a point are rows `256·qi + r` of the slab's columns 0…1023. -/
theorem qSlab_apply (i : grid1.Coords) (x0 : Vec Ideal S1x2048x3072 .bf16) (r : Fin 256) (cc : Fin 1024) (j : S1x2048x3072.Idx)
    (h0 : (j 0).val = 0) (h1 : (j 1).val = 256 * (i 1).val + r.val) (h2 : (j 2).val = cc.val) :
    k1_pay3 (qLoad i x0) (ix2 r cc) = x0 j := by
  unfold k1_pay3
  refine (shapeCast_dropUnit_apply ![256, 1024] _ _ _).trans ?_
  unfold qLoad
  show x0 _ = x0 j
  refine congrArg x0 ?_
  funext a; apply Fin.ext
  have e := k1_off1_eq i
  match a with
  | ⟨0, _⟩ => show k1_off1 i 0 + 1 * 0 = (j 0).val; rw [e]; show 0 + 1 * 0 = _; omega
  | ⟨1, _⟩ => show k1_off1 i 1 + 1 * r.val = (j 1).val; rw [e]; show 256 * (i 1).val + 1 * r.val = _; omega
  | ⟨2, _⟩ => show k1_off1 i 2 + 1 * cc.val = (j 2).val; rw [e]; show 0 + 1 * cc.val = _; omega

/-- The key slab is the slab's columns 1024…2047. -/
theorem kSlab_apply (x0 : Vec Ideal S1x2048x3072 .bf16) (kk : Fin 2048) (cc : Fin 1024) (j : S1x2048x3072.Idx)
    (h0 : (j 0).val = 0) (h1 : (j 1).val = kk.val) (h2 : (j 2).val = 1024 + cc.val) :
    k1_pay4 (kLoad x0) (ix2 kk cc) = x0 j := by
  unfold k1_pay4
  refine (shapeCast_dropUnit_apply ![2048, 1024] _ _ _).trans ?_
  unfold kLoad
  show x0 _ = x0 j
  refine congrArg x0 ?_
  funext a; apply Fin.ext
  match a with
  | ⟨0, _⟩ => show 0 + 1 * 0 = (j 0).val; omega
  | ⟨1, _⟩ => show 0 + 1 * kk.val = (j 1).val; omega
  | ⟨2, _⟩ => show 1024 + 1 * cc.val = (j 2).val; omega

/-- The value slab is the slab's columns 2048…3071. -/
theorem vSlab_apply (x0 : Vec Ideal S1x2048x3072 .bf16) (kk : Fin 2048) (cc : Fin 1024) (j : S1x2048x3072.Idx)
    (h0 : (j 0).val = 0) (h1 : (j 1).val = kk.val) (h2 : (j 2).val = 2048 + cc.val) :
    k1_pay5 (vLoad x0) (ix2 kk cc) = x0 j := by
  unfold k1_pay5
  refine (shapeCast_dropUnit_apply ![2048, 1024] _ _ _).trans ?_
  unfold vLoad
  show x0 _ = x0 j
  refine congrArg x0 ?_
  funext a; apply Fin.ext
  match a with
  | ⟨0, _⟩ => show 0 + 1 * 0 = (j 0).val; omega
  | ⟨1, _⟩ => show 0 + 1 * kk.val = (j 1).val; omega
  | ⟨2, _⟩ => show 2048 + 1 * cc.val = (j 2).val; omega

/-! ## The tile read back is one function of its index -/

/-- Column `h·64 + d` belongs to head `h`, feature `d`. -/
theorem headOf_mk (h : Fin 16) (d : Fin 64) (p : h.val * 64 + d.val < 1024) : headOf ⟨h.val * 64 + d.val, p⟩ = h :=
  Fin.ext (by show (h.val * 64 + d.val) / 64 = h.val; have := d.isLt; omega)
theorem featOf_mk (h : Fin 16) (d : Fin 64) (p : h.val * 64 + d.val < 1024) : featOf ⟨h.val * 64 + d.val, p⟩ = d :=
  Fin.ext (by show (h.val * 64 + d.val) % 64 = d.val; have := d.isLt; omega)
theorem headOf_featOf (cc : Fin 1024) : (headOf cc).val * 64 + (featOf cc).val = cc.val := by
  show cc.val / 64 * 64 + cc.val % 64 = cc.val; omega

/-- A head output depends on the queries only through its own row, on the keys and values only through its own batch
    and head. -/
theorem headK_congr (Q K V Q' K' V' : Fin 4 → Fin 16 → Fin 2048 → Fin 64 → EReal) (b b' : Fin 4) (h : Fin 16) (s : Fin 2048) (d : Fin 64)
    (hQ : ∀ dd, Q b h s dd = Q' b' h s dd) (hK : ∀ kk dd, K b h kk dd = K' b' h kk dd) (hV : ∀ kk, V b h kk d = V' b' h kk d) :
    headK Q K V b h s d = headK Q' K' V' b' h s d := by
  have hl : ∀ kk, logit Q K b h s kk = logit Q' K' b' h s kk := fun kk => by unfold logit; simp only [hQ, hK]
  have hm : rowMax Q K b h s = rowMax Q' K' b' h s := by unfold rowMax; simp only [hl]
  have hw : ∀ kk, weight Q K b h s kk = weight Q' K' b' h s kk := fun kk => by unfold weight; rw [hl, hm]
  have hn : Cert.Attn.norm Q K b h s = Cert.Attn.norm Q' K' b' h s := by unfold Cert.Attn.norm; simp only [hw]
  unfold headK; simp only [hw, hV, hn]

section Tile
variable (i : grid1.Coords) (x0 : S1x2048x3072.Idx → EReal)

/-- The projections a head output is computed from, read off the slab alone (the batch plays no part). -/
def slabQ : Fin 4 → Fin 16 → Fin 2048 → Fin 64 → EReal :=
  fun _ h s d => x0 (ix3 0 s ⟨h.val * 64 + d.val, by have := h.isLt; have := d.isLt; omega⟩)
def slabK : Fin 4 → Fin 16 → Fin 2048 → Fin 64 → EReal :=
  fun _ h s d => x0 (ix3 0 s ⟨1024 + (h.val * 64 + d.val), by have := h.isLt; have := d.isLt; omega⟩)
def slabV : Fin 4 → Fin 16 → Fin 2048 → Fin 64 → EReal :=
  fun _ h s d => x0 (ix3 0 s ⟨2048 + (h.val * 64 + d.val), by have := h.isLt; have := d.isLt; omega⟩)

/-- The position of the point's query row `r` within the batch. -/
def rowPos (r : Fin 256) : Fin 2048 :=
  ⟨256 * (i 1).val + r.val, by have h8 : (i 1).val < 8 := (i 1).isLt; have := r.isLt; omega⟩

/-- What the scratch tile holds when it is read back: at row `r`, column `cc`, the output of the column's head at the
    column's feature, for the query at the row's position. -/
def tile : S256x1024.Idx → EReal := fun y =>
  headK (slabQ x0) (slabK x0) (slabV x0) 0 (headOf ⟨(y 1).val, (y 1).isLt⟩) (rowPos i ⟨(y 0).val, (y 0).isLt⟩) (featOf ⟨(y 1).val, (y 1).isLt⟩)

theorem tile_apply (y : S256x1024.Idx) (r : Fin 256) (cc : Fin 1024) (h0 : (y 0).val = r.val) (h1 : (y 1).val = cc.val) :
    tile i x0 y = headK (slabQ x0) (slabK x0) (slabV x0) 0 (headOf cc) (rowPos i r) (featOf cc) := by
  have e0 : (⟨(y 0).val, (y 0).isLt⟩ : Fin 256) = r := Fin.ext h0
  have e1 : (⟨(y 1).val, (y 1).isLt⟩ : Fin 1024) = cc := Fin.ext h1
  unfold tile
  rw [e0, e1]

/-- The store of the head at column offset `off = 64·h` holds, at each of its entries, the tile's function at the entry's
    place in the tile. -/
theorem piece_agrees (off : Nat) (h0 : Fin 16) (hoff : off = h0.val * 64) (hq : S256x1024.Slices ![0, off] S256x64) (hk : S2048x1024.Slices ![0, off] S2048x64)
    (inb : ∀ a, (![0, off] : Fin 2 → Nat) a + S256x64.size a ≤ S256x1024.size a) (x : S256x64.Idx) :
    headBlock (F := Ideal) ![0, off] hq hk (k1_pay3 (qLoad i x0)) (k1_pay4 (kLoad x0)) (k1_pay5 (vLoad x0)) x
      = tile i x0 ((Rect.unit (s := S256x1024) ![0, off] S256x64.size inb).emb x) := by
  obtain ⟨r, d, rfl⟩ : ∃ (r : Fin 256) (d : Fin 64), x = ix2 r d := ⟨x 0, x 1, eq_ix2 x⟩
  have hd := d.isLt
  have hh := h0.isLt
  subst hoff
  have hlt : h0.val * 64 + d.val < 1024 := by omega
  rw [tile_apply i x0 _ r ⟨h0.val * 64 + d.val, hlt⟩ (by show 0 + 1 * r.val = r.val; omega) (by show h0.val * 64 + 1 * d.val = h0.val * 64 + d.val; omega),
    headOf_mk h0 d hlt, featOf_mk h0 d hlt]
  refine headBlock_apply (h0.val * 64) (by omega) hq hk _ _ _ r d (slabQ x0) (slabK x0) (slabV x0) 0 h0 (rowPos i r) ?_ ?_ ?_
  · intro dd
    exact qSlab_apply i x0 r _ _ rfl rfl rfl
  · intro kk dd
    exact kSlab_apply x0 kk _ _ rfl rfl rfl
  · intro kk
    exact vSlab_apply x0 kk _ _ rfl rfl rfl

/-- The tile read back after its sixteen stores is that function: the stores tile it, and each agrees with it. -/
theorem scratch_apply (y : S256x1024.Idx) :
    View.canon (scratchPieces (F := Ideal) (k1_pay3 (qLoad i x0)) (k1_pay4 (kLoad x0)) (k1_pay5 (vLoad x0))) y = tile i x0 y := by
  refine View.canon_apply_of_pieces (Val := Elt Ideal) (S := S256x1024) (e := EltTy.bf16) (tile i x0) _ ?_ y (View.cover_of_tiledL (s := S256x1024) _ ![256, 64] (by sl_kernel_rfl) y)
  intro p hp
  simp only [scratchPieces, List.mem_cons, List.not_mem_nil, or_false] at hp
  rcases hp with rfl | rfl | rfl | rfl | rfl | rfl | rfl | rfl | rfl | rfl | rfl | rfl | rfl | rfl | rfl | rfl
  · exact piece_agrees i x0 960 ⟨15, by decide⟩ rfl slices_S256x1024_o0_960_S256x64 slices_S2048x1024_o0_960_S2048x64 inb_S256x1024_S256x64_0_960
  · exact piece_agrees i x0 896 ⟨14, by decide⟩ rfl slices_S256x1024_o0_896_S256x64 slices_S2048x1024_o0_896_S2048x64 inb_S256x1024_S256x64_0_896
  · exact piece_agrees i x0 832 ⟨13, by decide⟩ rfl slices_S256x1024_o0_832_S256x64 slices_S2048x1024_o0_832_S2048x64 inb_S256x1024_S256x64_0_832
  · exact piece_agrees i x0 768 ⟨12, by decide⟩ rfl slices_S256x1024_o0_768_S256x64 slices_S2048x1024_o0_768_S2048x64 inb_S256x1024_S256x64_0_768
  · exact piece_agrees i x0 704 ⟨11, by decide⟩ rfl slices_S256x1024_o0_704_S256x64 slices_S2048x1024_o0_704_S2048x64 inb_S256x1024_S256x64_0_704
  · exact piece_agrees i x0 640 ⟨10, by decide⟩ rfl slices_S256x1024_o0_640_S256x64 slices_S2048x1024_o0_640_S2048x64 inb_S256x1024_S256x64_0_640
  · exact piece_agrees i x0 576 ⟨9, by decide⟩ rfl slices_S256x1024_o0_576_S256x64 slices_S2048x1024_o0_576_S2048x64 inb_S256x1024_S256x64_0_576
  · exact piece_agrees i x0 512 ⟨8, by decide⟩ rfl slices_S256x1024_o0_512_S256x64 slices_S2048x1024_o0_512_S2048x64 inb_S256x1024_S256x64_0_512
  · exact piece_agrees i x0 448 ⟨7, by decide⟩ rfl slices_S256x1024_o0_448_S256x64 slices_S2048x1024_o0_448_S2048x64 inb_S256x1024_S256x64_0_448
  · exact piece_agrees i x0 384 ⟨6, by decide⟩ rfl slices_S256x1024_o0_384_S256x64 slices_S2048x1024_o0_384_S2048x64 inb_S256x1024_S256x64_0_384
  · exact piece_agrees i x0 320 ⟨5, by decide⟩ rfl slices_S256x1024_o0_320_S256x64 slices_S2048x1024_o0_320_S2048x64 inb_S256x1024_S256x64_0_320
  · exact piece_agrees i x0 256 ⟨4, by decide⟩ rfl slices_S256x1024_o0_256_S256x64 slices_S2048x1024_o0_256_S2048x64 inb_S256x1024_S256x64_0_256
  · exact piece_agrees i x0 192 ⟨3, by decide⟩ rfl slices_S256x1024_o0_192_S256x64 slices_S2048x1024_o0_192_S2048x64 inb_S256x1024_S256x64_0_192
  · exact piece_agrees i x0 128 ⟨2, by decide⟩ rfl slices_S256x1024_o0_128_S256x64 slices_S2048x1024_o0_128_S2048x64 inb_S256x1024_S256x64_0_128
  · exact piece_agrees i x0 64 ⟨1, by decide⟩ rfl slices_S256x1024_o0_64_S256x64 slices_S2048x1024_o0_64_S2048x64 inb_S256x1024_S256x64_0_64
  · exact piece_agrees i x0 0 ⟨0, by decide⟩ rfl slices_S256x1024_o0_0_S256x64 slices_S2048x1024_o0_0_S2048x64 inb_S256x1024_S256x64_0_0

end Tile

/-! ## The block at an entry -/

/-- The block region 1's body leaves at a grid point, at `(0, r, o)`. -/
theorem block_apply (c : Dev nD) (i : grid1.Coords) (arg2 : Memref sig .tc .vmem S1x2048x3072 .bf16) (harg2 : arg2.IsWhole) (arg3 : Memref sig .tc .vmem S1024x1024 .bf16) (harg3 : arg3.IsWhole) (arg4 : Memref sig .tc .vmem S1x256x1024 .f32) (harg4 : arg4.IsWhole) (arg5 : Memref sig .tc .vmem S256x1024 .bf16) (harg5 : arg5.IsWhole)
    (x0 : S1x2048x3072.Idx → EReal) (x1 : S1024x1024.Idx → EReal)
    (Q K V : Fin 4 → Fin 16 → Fin 2048 → Fin 64 → EReal) (b : Fin 4) (r : Fin 256) (o : Fin 1024) (s : Fin 2048)
    (hs : s.val = 256 * (i 1).val + r.val)
    (hQ : ∀ cc : Fin 1024, x0 (ix3 0 s ⟨cc.val, by have := cc.isLt; omega⟩) = Q b (headOf cc) s (featOf cc))
    (hK : ∀ (kk : Fin 2048) (cc : Fin 1024), x0 (ix3 0 kk ⟨1024 + cc.val, by have := cc.isLt; omega⟩) = K b (headOf cc) kk (featOf cc))
    (hV : ∀ (kk : Fin 2048) (cc : Fin 1024), x0 (ix3 0 kk ⟨2048 + cc.val, by have := cc.isLt; omega⟩) = V b (headOf cc) kk (featOf cc)) :
    (out1_A_2 (F := Ideal) c i arg2 harg2 arg3 harg3 arg4 harg4 arg5 harg5 x0 x1 : S1x256x1024.Idx → EReal) (ix3 0 r o)
      = ∑ cc : Fin 1024, headK Q K V b (headOf cc) s (featOf cc) * x1 (ix2 o cc) := by
  have es : s = rowPos i r := Fin.ext hs
  subst es
  rw [out_eq, oproj_apply]
  refine Finset.sum_congr rfl fun cc _ => ?_
  refine congrArg (· * x1 (ix2 o cc)) ?_
  show View.canon _ _ = _
  rw [scratch_apply i x0, tile_apply i x0 _ r cc (by show 0 + 1 * r.val = r.val; omega) (by show 0 + 1 * cc.val = cc.val; omega)]
  refine headK_congr _ _ _ Q K V 0 b (headOf cc) (rowPos i r) (featOf cc) ?_ ?_ ?_
  · intro dd
    have hlt : (headOf cc).val * 64 + dd.val < 1024 := by have := (headOf cc).isLt; have := dd.isLt; omega
    have := hQ ⟨(headOf cc).val * 64 + dd.val, hlt⟩
    rw [headOf_mk (headOf cc) dd hlt, featOf_mk (headOf cc) dd hlt] at this
    exact this
  · intro kk dd
    have hlt : (headOf cc).val * 64 + dd.val < 1024 := by have := (headOf cc).isLt; have := dd.isLt; omega
    have := hK kk ⟨(headOf cc).val * 64 + dd.val, hlt⟩
    rw [headOf_mk (headOf cc) dd hlt, featOf_mk (headOf cc) dd hlt] at this
    exact this
  · intro kk
    have hlt : (headOf cc).val * 64 + (featOf cc).val < 1024 := by have := headOf_featOf cc; have := cc.isLt; omega
    have := hV kk ⟨(headOf cc).val * 64 + (featOf cc).val, hlt⟩
    rw [headOf_mk (headOf cc) (featOf cc) hlt, featOf_mk (headOf cc) (featOf cc) hlt] at this
    exact this

end Cert.KernelIdeal.Region1

end
-- ==== Proof.Region1Array.lean ====
/-
  Region 1 of the kernel's program (fused attention and output projection): what its output array holds after the
  region, index by index, from the two arrays the region finds at entry. The first is a [4, 2048, 3072] slab whose
  columns 0…1023 are the queries, 1024…2047 the keys and 2048…3071 the values, each head-major; the second is the
  output weight. Entry `(b, s, o)` of the result is the heads' outputs at `(b, s)`, concatenated head-major, times row
  `o` of the output weight.
-/
import proofs.«422417_j3848290697596_3_alg».proof.Proof.Region1Block
import proofs.«422417_j3848290697596_3_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (V : (c : Dev nD) → (b : Ref sig .tc) → Buf (Elt Ideal) ((c : Thread nD τ).loc b))

/-- The fused projection slab as region 1 finds it. -/
abbrev qkvArr (c : Dev nD) : S4x2048x3072.Idx → EReal := V c main_v7
/-- The output weight as region 1 finds it. -/
abbrev woArr (c : Dev nD) : S1024x1024.Idx → EReal := V c main_v4
/-- Region 1's output array after the region. -/
abbrev outArr1 (c : Dev nD) : S4x2048x1024.Idx → EReal := (dat1 (F := Ideal) V c).arrAt 2 cfg1.N

/-- The queries, keys and values of the slab, by batch, head, position and feature. -/
def Qof (c : Dev nD) : Fin 4 → Fin 16 → Fin 2048 → Fin 64 → EReal :=
  fun b h s d => qkvArr V c (ix3 b s ⟨h.val * 64 + d.val, by have := h.isLt; have := d.isLt; omega⟩)
def Kof (c : Dev nD) : Fin 4 → Fin 16 → Fin 2048 → Fin 64 → EReal :=
  fun b h s d => qkvArr V c (ix3 b s ⟨1024 + h.val * 64 + d.val, by have := h.isLt; have := d.isLt; omega⟩)
def Vof (c : Dev nD) : Fin 4 → Fin 16 → Fin 2048 → Fin 64 → EReal :=
  fun b h s d => qkvArr V c (ix3 b s ⟨2048 + h.val * 64 + d.val, by have := h.isLt; have := d.isLt; omega⟩)

/-- The three index maps over the grid: the slab's block sits on the output block's batch and at the origin of the
    other two axes; the weight's block is the whole weight; the output's block is the one the two grid coordinates
    name, at column block zero. -/
theorem block_offsets : ∀ t : Fin cfg1.N,
    win1_0.index t (0 : Fin 3) = win1_2.index t (0 : Fin 3)
    ∧ win1_0.index t (1 : Fin 3) = 0
    ∧ win1_0.index t (2 : Fin 3) = 0
    ∧ win1_1.index t (0 : Fin 2) = 0
    ∧ win1_1.index t (1 : Fin 2) = 0
    ∧ win1_2.index t (2 : Fin 3) = 0
    ∧ win1_2.index t (0 : Fin 3) = (grid1.coords t 0).val
    ∧ win1_2.index t (1 : Fin 3) = (grid1.coords t 1).val
    ∧ win1_2.index t (0 : Fin 3) < 4
    ∧ win1_2.index t (1 : Fin 3) < 8 :=
  (by decide +kernel : ∀ t : Fin grid1.N, _)

/-- Every (batch, row block) pair of the output array is some grid point's. -/
theorem block_onto : ∀ (q0 : Fin 4) (q1 : Fin 8), ∃ t : Fin cfg1.N, win1_2.index t = ![q0.val, q1.val, 0] :=
  (by decide +kernel : ∀ (q0 : Fin 4) (q1 : Fin 8), ∃ t : Fin grid1.N, win1_2.index t = ![q0.val, q1.val, 0])

/-- The slab's block at point `t`, at `(0, kk, n)`, is the slab at the batch of the output's block, row `kk`, column `n`. -/
theorem slab_apply (c : Dev nD) (t : Fin cfg1.N) (kk : Fin 2048) (n : Fin 3072) (i : S4x2048x3072.Idx)
    (h0 : (i 0).val = win1_2.index t (0 : Fin 3)) (h1 : (i 1).val = kk.val) (h2 : (i 2).val = n.val) :
    (iblk1 V c 0 t : Vec Ideal S1x2048x3072 .bf16) (ix3 0 kk n) = qkvArr V c i := by
  obtain ⟨e0, e1, e2, -⟩ := block_offsets t
  unfold iblk1
  show V c main_v7 (((cfg1.win 0).blk t).view.emb (ix3 0 kk n)) = V c main_v7 i
  refine congrArg (V c main_v7) ?_
  funext a; apply Fin.ext
  match a with
  | ⟨0, _⟩ => show win1_0.index t (0 : Fin 3) * 1 + 1 * 0 = (i 0).val; omega
  | ⟨1, _⟩ => show win1_0.index t (1 : Fin 3) * 2048 + 1 * kk.val = (i 1).val; omega
  | ⟨2, _⟩ => show win1_0.index t (2 : Fin 3) * 3072 + 1 * n.val = (i 2).val; omega

/-- The weight's block at every point is the whole output weight. -/
theorem weight_apply (c : Dev nD) (t : Fin cfg1.N) (o : Fin 1024) (cc : Fin 1024) :
    (iblk1 V c 1 t : Vec Ideal S1024x1024 .bf16) (ix2 o cc) = woArr V c (ix2 o cc) := by
  obtain ⟨-, -, -, e3, e4, -⟩ := block_offsets t
  unfold iblk1
  show V c main_v4 (((cfg1.win 1).blk t).view.emb (ix2 o cc)) = V c main_v4 (ix2 o cc)
  refine congrArg (V c main_v4) ?_
  funext a; apply Fin.ext
  match a with
  | ⟨0, _⟩ => show win1_1.index t (0 : Fin 2) * 1024 + 1 * o.val = o.val; omega
  | ⟨1, _⟩ => show win1_1.index t (1 : Fin 2) * 1024 + 1 * cc.val = cc.val; omega

/-- Column `cc` of the concatenated heads is feature `featOf cc` of head `headOf cc`. -/
theorem head_feat (cc : Fin 1024) : (headOf cc).val * 64 + (featOf cc).val = cc.val := by
  show cc.val / 64 * 64 + cc.val % 64 = cc.val
  omega

/-- What the region's output array ends holding: entry `(b, s, o)` is the heads' outputs at `(b, s)`, concatenated
    head-major, times row `o` of the output weight. -/
def attnOut (c : Dev nD) : S4x2048x1024.Idx → EReal := fun i =>
  ∑ cc : Fin 1024, headK (Qof V c) (Kof V c) (Vof V c) (⟨(i 0).val, (i 0).isLt⟩ : Fin 4) (headOf cc) (⟨(i 1).val, (i 1).isLt⟩ : Fin 2048) (featOf cc)
    * woArr V c (ix2 (⟨(i 2).val, (i 2).isLt⟩ : Fin 1024) cc)

/-- The same at an index whose coordinates are `b`, `s`, `o`. -/
theorem attnOut_apply (c : Dev nD) (i : S4x2048x1024.Idx) (b : Fin 4) (s : Fin 2048) (o : Fin 1024)
    (h0 : (i 0).val = b.val) (h1 : (i 1).val = s.val) (h2 : (i 2).val = o.val) :
    attnOut V c i = ∑ cc : Fin 1024, headK (Qof V c) (Kof V c) (Vof V c) b (headOf cc) s (featOf cc) * woArr V c (ix2 o cc) := by
  obtain rfl : (⟨(i 0).val, (i 0).isLt⟩ : Fin 4) = b := Fin.ext h0
  obtain rfl : (⟨(i 1).val, (i 1).isLt⟩ : Fin 2048) = s := Fin.ext h1
  obtain rfl : (⟨(i 2).val, (i 2).isLt⟩ : Fin 1024) = o := Fin.ext h2
  rfl

/-- What the body leaves at point `t`, at `(0, r, o)`, is `attnOut` at the array index the output's block puts `(0, r, o)` on. -/
theorem point_apply (c : Dev nD) (t : Fin cfg1.N) (r : Fin 256) (o : Fin 1024) :
    (outsAt1 V c t : S1x256x1024.Idx → EReal) (ix3 0 r o) = attnOut V c (((cfg1.win 2).blk t).view.emb (ix3 0 r o)) := by
  obtain ⟨-, -, -, -, -, e5, e6, e7, l0, l1⟩ := block_offsets t
  have hr := r.isLt
  have hs : 256 * (grid1.coords t 1).val + r.val < 2048 := by omega
  have hQ : ∀ cc : Fin 1024, (iblk1 V c 0 t : Vec Ideal S1x2048x3072 .bf16) (ix3 0 (⟨256 * (grid1.coords t 1).val + r.val, hs⟩ : Fin 2048) ⟨cc.val, by have := cc.isLt; omega⟩)
      = Qof V c ⟨win1_2.index t (0 : Fin 3), l0⟩ (headOf cc) ⟨256 * (grid1.coords t 1).val + r.val, hs⟩ (featOf cc) := fun cc =>
    slab_apply V c t _ _ _ rfl rfl (head_feat cc)
  have hK : ∀ (kk : Fin 2048) (cc : Fin 1024), (iblk1 V c 0 t : Vec Ideal S1x2048x3072 .bf16) (ix3 0 kk ⟨1024 + cc.val, by have := cc.isLt; omega⟩)
      = Kof V c ⟨win1_2.index t (0 : Fin 3), l0⟩ (headOf cc) kk (featOf cc) := fun kk cc =>
    slab_apply V c t _ _ _ rfl rfl (by have := head_feat cc; show 1024 + (headOf cc).val * 64 + (featOf cc).val = 1024 + cc.val; omega)
  have hV : ∀ (kk : Fin 2048) (cc : Fin 1024), (iblk1 V c 0 t : Vec Ideal S1x2048x3072 .bf16) (ix3 0 kk ⟨2048 + cc.val, by have := cc.isLt; omega⟩)
      = Vof V c ⟨win1_2.index t (0 : Fin 3), l0⟩ (headOf cc) kk (featOf cc) := fun kk cc =>
    slab_apply V c t _ _ _ rfl rfl (by have := head_feat cc; show 2048 + (headOf cc).val * 64 + (featOf cc).val = 2048 + cc.val; omega)
  unfold outsAt1
  refine (block_apply c (grid1.coords t) _ _ _ _ _ _ _ _ _ _ (Qof V c) (Kof V c) (Vof V c) ⟨win1_2.index t (0 : Fin 3), l0⟩ r o
    ⟨256 * (grid1.coords t 1).val + r.val, hs⟩ rfl hQ hK hV).trans ?_
  refine (Finset.sum_congr rfl fun cc _ => congrArg (_ * ·) (weight_apply V c t o cc)).trans (attnOut_apply V c _ _ _ _ ?_ ?_ ?_).symm
  · show win1_2.index t (0 : Fin 3) * 1 + 1 * 0 = win1_2.index t (0 : Fin 3); omega
  · show win1_2.index t (1 : Fin 3) * 256 + 1 * r.val = 256 * (grid1.coords t 1).val + r.val; omega
  · show win1_2.index t (2 : Fin 3) * 1024 + 1 * o.val = o.val; omega

/-- The same at any index of the block. -/
theorem point_value (c : Dev nD) (t : Fin cfg1.N) (y : S1x256x1024.Idx) :
    (outsAt1 V c t : S1x256x1024.Idx → EReal) y = attnOut V c (((cfg1.win 2).blk t).view.emb y) := by
  obtain ⟨r, o, rfl⟩ : ∃ (r : Fin 256) (o : Fin 1024), y = ix3 (0 : Fin 1) r o :=
    ⟨y 1, y 2, funext fun a => Fin.ext (by
      match a with
      | ⟨0, _⟩ => have h : (y 0).val < 1 := (y 0).isLt; show (y 0).val = 0; omega
      | ⟨1, _⟩ => rfl
      | ⟨2, _⟩ => rfl)⟩
  exact point_apply V c t r o

/-- What point `t` writes back is block `t` of `attnOut`. -/
theorem flushed_eq (c : Dev nD) (t : Fin cfg1.N) :
    (dat1 V c).flushed 2 t = ((cfg1.win 2).blk t).view.read (Elt Ideal) (attnOut V c) := by
  show (cfg1.win 2).cut (grid1.coords t) ((dat1 V c).after 2 t) = _
  rw [after1_2]
  funext y
  exact point_value V c t y

/-- An index of the output array is in point `t`'s block iff each coordinate is in the block's range on its axis. -/
theorem mem_blk (t : Fin cfg1.N) (i : S4x2048x1024.Idx) :
    i ∈ ((cfg1.win 2).blk t).view.set ↔ ∀ a : Fin 3, win1_2.index t a * S1x256x1024.size a ≤ (i a).val ∧ (i a).val < win1_2.index t a * S1x256x1024.size a + S1x256x1024.size a := by
  show i ∈ ((View.whole main_v8).slice (win1_2.rect t)).set ↔ _
  rw [View.set_slice_whole, Rect.mem_set_unit]
  exact Iff.rfl

/-- The blocks tile the output array: index `(b, s, o)` lies in the block of the point whose batch is `b` and whose row
    block is `s / 256`. -/
theorem cover (i : S4x2048x1024.Idx) : ∃ t : Fin cfg1.N, (cfg1.win 2).flush t = true ∧ i ∈ ((cfg1.win 2).blk t).view.set := by
  have hi0 : (i 0).val < 4 := (i 0).isLt
  have hi1 : (i 1).val < 2048 := (i 1).isLt
  have hi2 : (i 2).val < 1024 := (i 2).isLt
  obtain ⟨t, ht⟩ := block_onto ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

/-- After region 1, entry `(b, s, o)` of its output array. -/
theorem region1_value (c : Dev nD) (b : Fin 4) (s : Fin 2048) (o : Fin 1024) :
    outArr1 V c (ix3 b s o)
      = ∑ cc : Fin 1024, headK (Qof V c) (Kof V c) (Vof V c) b (headOf cc) s (featOf cc) * woArr V c (ix2 o cc) := by
  show (dat1 V c).arrAt 2 cfg1.N (ix3 b s o) = _
  rw [(dat1 V c).arrAt_eq_of_cover 2 (attnOut V c) (fun t _ => flushed_eq V c t) cover]
  exact attnOut_apply V c (ix3 b s o) b s o rfl rfl rfl

end Cert.KernelIdeal.Region1

end
-- ==== Proof.lean ====
/-
  Multi-head attention, a fused two-kernel implementation against the textbook formula.

  Both programs project the activations by one fused weight (`x · wᵀ`), split the result into sixteen heads of queries,
  keys and values, form each head's scaled logits `q · kᵀ / 8`, subtract the row maximum, exponentiate, normalise by the
  row sum, weigh the values, concatenate the heads and project by `woᵀ`. They differ in layout — the kernel regroups the
  fused weight's rows part-major before the projection, so that queries, keys and values are three contiguous slabs,
  and works on tiles of 256 query rows — and in ONE arithmetic step: the kernel divides the weighted sum of the values
  by the normaliser once, the reference divides every weight first. Over the extended reals with exact operations the
  layouts are the same function of the inputs index by index, and on FINITE inputs every intermediate quantity is a
  real number and the normaliser a positive one, so division distributes over the finite sum and the two results agree.
  The narrowing casts to sixteen-bit floats are the identity on extended reals, and the ideal pass rewrote nothing.

  The frames are the generated ones (the reference's is its generated run with the result dropped). The kernel's
  result array is read off the generated frame's proof data region by region: region 0 leaves the regrouped projection,
  region 1 the attention output with the single division. The reference's result is read one operation at a time.
-/
import proofs.«422417_j3848290697596_3_alg».proof.Defs
import proofs.«422417_j3848290697596_3_alg».proof.Proof.Gen.Kernel
import proofs.«422417_j3848290697596_3_alg».proof.Proof.Gen.Kernel.Skeleton
import proofs.«422417_j3848290697596_3_alg».proof.Proof.Gen.Kernel.Launch
import proofs.«422417_j3848290697596_3_alg».proof.Proof.Gen.Kernel.Points
import proofs.«422417_j3848290697596_3_alg».proof.Proof.Gen.Kernel.Frame
import proofs.«422417_j3848290697596_3_alg».proof.Proof.Gen.KernelIdeal
import proofs.«422417_j3848290697596_3_alg».proof.Proof.Gen.KernelIdeal.Skeleton
import proofs.«422417_j3848290697596_3_alg».proof.Proof.Gen.KernelIdeal.Launch
import proofs.«422417_j3848290697596_3_alg».proof.Proof.Gen.KernelIdeal.Points
import proofs.«422417_j3848290697596_3_alg».proof.Proof.Gen.KernelIdeal.Frame
import proofs.«422417_j3848290697596_3_alg».proof.Proof.Gen.ReferenceIdeal
import proofs.«422417_j3848290697596_3_alg».proof.Proof.Gen.ReferenceIdeal.Run
import proofs.«422417_j3848290697596_3_alg».proof.Proof.Gen.ReferenceIdeal.Read
import proofs.«422417_j3848290697596_3_alg».proof.Proof.Gen.Pre_finite_inputs
import proofs.«422417_j3848290697596_3_alg».proof.Proof.Spec
import proofs.«422417_j3848290697596_3_alg».proof.Proof.Algebra
import proofs.«422417_j3848290697596_3_alg».proof.Proof.RefSpec
import proofs.«422417_j3848290697596_3_alg».proof.Proof.Finite
import proofs.«422417_j3848290697596_3_alg».proof.Proof.KInputs
import proofs.«422417_j3848290697596_3_alg».proof.Proof.Host
import proofs.«422417_j3848290697596_3_alg».proof.Proof.KRun
import proofs.«422417_j3848290697596_3_alg».proof.Proof.Region1Array
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result array is the attention output with the single division -/

section KernelValue

open Cert.KernelIdeal Cert.KernelIdeal.Gen

variable (m : (ℓ : Loc nD τ sig) → Buf (Elt Ideal) ℓ) (ρ : Dev nD → PrngReg)

/-- The three slabs region 1 finds are the three parts of the fused projection of the launch arrays. -/
theorem slab_part (c : Dev nD) (p : Fin 3) (b : Fin 4) (h : Fin 16) (s : Fin 2048) (d : Fin 64) (n : Fin 3072)
    (hn : n.val = p.val * 1024 + h.val * 64 + d.val) :
    Region1.qkvArr (V3 (F := Ideal) m ρ) c (ix3 b s n) = Cert.Attn.part (Inputs.xin m c) (Inputs.win m c) p b h s d := by
  refine Eq.trans ?_ (Host.entry1_qkv m ρ c b s p h d)
  exact congrArg (fun n => Region1.qkvArr (V3 (F := Ideal) m ρ) c (ix3 b s n)) (Fin.ext hn)

theorem Qof_eq (c : Dev nD) : Region1.Qof (V3 (F := Ideal) m ρ) c = Cert.Attn.part (Inputs.xin m c) (Inputs.win m c) 0 := by
  funext b h s d
  exact slab_part m ρ c 0 b h s d _ (by show h.val * 64 + d.val = 0 * 1024 + h.val * 64 + d.val; omega)
theorem Kof_eq (c : Dev nD) : Region1.Kof (V3 (F := Ideal) m ρ) c = Cert.Attn.part (Inputs.xin m c) (Inputs.win m c) 1 := by
  funext b h s d
  exact slab_part m ρ c 1 b h s d _ (by show 1024 + h.val * 64 + d.val = 1 * 1024 + h.val * 64 + d.val; omega)
theorem Vof_eq (c : Dev nD) : Region1.Vof (V3 (F := Ideal) m ρ) c = Cert.Attn.part (Inputs.xin m c) (Inputs.win m c) 2 := by
  funext b h s d
  exact slab_part m ρ c 2 b h s d _ (by show 2048 + h.val * 64 + d.val = 2 * 1024 + h.val * 64 + d.val; omega)

/-- After the run the kernel's result array holds `outK` of the launch arrays. -/
theorem kernel_value (c : Dev nD) :
    ((dat1 (F := Ideal) (V3 m ρ) c).arrAt 2 cfg1.N : S4x2048x1024.Idx → EReal)
      = fun i => Cert.Attn.outK (Inputs.xin m c) (Inputs.win m c) (Inputs.woin m c) (i 0) (i 1) (i 2) := by
  funext i
  obtain ⟨b, s, o, rfl⟩ : ∃ (b : Fin 4) (s : Fin 2048) (o : Fin 1024), i = ix3 b s o := ⟨i 0, i 1, i 2, eq_ix3 i⟩
  show Region1.outArr1 (V3 (F := Ideal) m ρ) c (ix3 b s o) = Cert.Attn.outK _ _ _ b s o
  rw [Region1.region1_value, Qof_eq, Kof_eq, Vof_eq]
  unfold Cert.Attn.outK
  refine Finset.sum_congr rfl fun cc _ => ?_
  exact congrArg (_ * ·) (Host.entry1_wo m ρ c o cc)

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite arguments the kernel ends at `outK` and the reference at `outR` of the same
    arrays, and on real arrays these are one function. -/
theorem algebraic : Cert.algebraic_KernelIdeal_ReferenceIdeal := by
  intro m ρ m' ρ' hpre hagree
  refine ⟨fun c => fun i => Cert.Attn.outK (Cert.KernelIdeal.Inputs.xin m c) (Cert.KernelIdeal.Inputs.win m c) (Cert.KernelIdeal.Inputs.woin m c) (i 0) (i 1) (i 2), ?_, ?_⟩
  · exact (θ_run Cert.KernelIdeal.defs _ _).mono (fun r h c => ⟨(h c).1.trans (kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2.1, (hagree c).2.2]
    obtain ⟨hx, hw, -⟩ := Cert.Attn.Finite.real_of_pre _ _ _ (hpre c)
    funext i
    rw [Cert.Attn.Ref.ref_eq]
    exact (congrFun (congrFun (congrFun (Cert.Attn.outK_eq_outR (Cert.KernelIdeal.Inputs.xin m c) (Cert.KernelIdeal.Inputs.win m c)
      (Cert.KernelIdeal.Inputs.woin m c) (fun b s j => hx _) (fun o j => hw _)) (i 0)) (i 1)) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
